-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x63 : Shape := ⟨2, ![262144, 63]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S262144x63 : S_.BroadcastsInDim S262144x63 (![] : Fin 0 → Fin S262144x63.rank)
  reducesTo_S262144x63_S_d0_1 : S262144x63.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg21 : FVec F S64x3 .f32) (main_arg22 : FVec F S3 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x3 .f32 := Host.absf main_arg21
  let main_cst_40 : FVec F S_ .f32 := constant S_ .f32 0x7F800000#32
  let main_v105 : FVec F S64x3 .f32 := broadcastInDim S64x3 ![] bcast_S_S64x3 main_cst_40
  let main_v106 : IVec S64x3 1 := cmpf .olt main_v104 main_v105
  let main_c_41 : IVec S_ 1 := constantI S_ 1 1#1
  let main_v107 : IVec S_ 1 := (fun x v => Host.reduce IntOp.andi x v reducesTo_S64x3_S_d0_1 h_S_) main_v106 main_c_41
  let main_v108 : IVec S_ 1 := andi main_v103 main_v107
  let main_v109 : FVec F S3 .f32 := Host.absf main_arg22
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg18 : FVec F S64 .f32) (main_arg19 : FVec F S64x64 .f32) (main_arg20 : FVec F S64 .f32) (main_arg21 : FVec F S64x3 .f32) (main_arg22 : FVec F S3 .f32) (main_v83 : IVec S_ 1) (main_v84 : FVec F S256x64 .f32) (main_cst_32 : FVec F S_ .f32) : IVec S_ 1 :=
  let main_v85 : FVec F S256x64 .f32 := broadcastInDim S256x64 ![] bcast_S_S256x64 main_cst_32
  let main_v86 : IVec S256x64 1 := cmpf .olt main_v84 main_v85
  let main_c_33 : IVec S_ 1 := constantI S_ 1 1#1
  let main_v87 : IVec S_ 1 := (fun x v => Host.reduce IntOp.andi x v reducesTo_S256x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg19
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x4 .f32 := Host.absf main_arg15
  let main_cst_28 : FVec F S_ .f32 := constant S_ .f32 0x7F800000#32
  let main_v75 : FVec F S256x4 .f32 := broadcastInDim S256x4 ![] bcast_S_S256x4 main_cst_28
  let main_v76 : IVec S256x4 1 := cmpf .olt main_v74 main_v75
  let main_c_29 : IVec S_ 1 := constantI S_ 1 1#1
  let main_v77 : IVec S_ 1 := (fun x v => Host.reduce IntOp.andi x v reducesTo_S256x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S256x64 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S319x256 .f32 := Host.absf main_arg9
  let main_cst_16 : FVec F S_ .f32 := constant S_ .f32 0x7F800000#32
  let main_v45 : FVec F S319x256 .f32 := broadcastInDim S319x256 ![] bcast_S_S319x256 main_cst_16
  let main_v46 : IVec S319x256 1 := cmpf .olt main_v44 main_v45
  let main_c_17 : IVec S_ 1 := constantI S_ 1 1#1
  let main_v47 : IVec S_ 1 := (fun x v => Host.reduce IntOp.andi x v reducesTo_S319x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S262144x63 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x4 .f32) (main_arg16 : FVec F S4 .f32) (main_arg17 : FVec F S256x64 .f32) (main_arg18 : FVec F S64 .f32) (main_arg19 : FVec F S64x64 .f32) (main_arg20 : FVec F S64 .f32) (main_arg21 : FVec F S64x3 .f32) (main_arg22 : FVec F S3 .f32) : IVec S_ 1 :=
  let main_v0 : FVec F S262144x63 .f32 := Host.absf main_arg0
  let main_cst : FVec F S_ .f32 := constant S_ .f32 0x7F800000#32
  let main_v1 : FVec F S262144x63 .f32 := broadcastInDim S262144x63 ![] bcast_S_S262144x63 main_cst
  let main_v2 : IVec S262144x63 1 := cmpf .olt main_v0 main_v1
  let main_c : IVec S_ 1 := constantI S_ 1 1#1
  let main_v3 : IVec S_ 1 := (fun x v => Host.reduce IntOp.andi x v reducesTo_S262144x63_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S262144x63 : Shape := ⟨2, ![262144, 63]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S262144x1 : Shape := ⟨2, ![262144, 1]⟩
abbrev S262144x3 : Shape := ⟨2, ![262144, 3]⟩
abbrev S2048x63 : Shape := ⟨2, ![2048, 63]⟩
abbrev S2048x1 : Shape := ⟨2, ![2048, 1]⟩
abbrev S2048x3 : Shape := ⟨2, ![2048, 3]⟩
abbrev S2048x256 : Shape := ⟨2, ![2048, 256]⟩
abbrev S1x256 : Shape := ⟨2, ![1, 256]⟩
abbrev S2048x319 : Shape := ⟨2, ![2048, 319]⟩
abbrev S2048x4 : Shape := ⟨2, ![2048, 4]⟩
abbrev S1x4 : Shape := ⟨2, ![1, 4]⟩
abbrev S2048x64 : Shape := ⟨2, ![2048, 64]⟩
abbrev S1x64 : Shape := ⟨2, ![1, 64]⟩
abbrev S1x3 : Shape := ⟨2, ![1, 3]⟩
abbrev S2048 : Shape := ⟨1, ![2048]⟩

abbrev nBuf : Space → Nat
  | .hbm => 26
  | .vmem => 30
  | .smem => 0
  | _ => 0

abbrev bufTy : (tb : Table) → Fin (tcTables nBuf tb) → BufTy
  | .hbm, ⟨0, _⟩ => ⟨S262144x63, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x4, .f32⟩
  | .hbm, ⟨16, _⟩ => ⟨S4, .f32⟩
  | .hbm, ⟨17, _⟩ => ⟨S256x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x3, .f32⟩
  | .hbm, ⟨22, _⟩ => ⟨S3, .f32⟩
  | .hbm, ⟨23, _⟩ => ⟨S262144x1, .f32⟩
  | .hbm, ⟨24, _⟩ => ⟨S262144x3, .f32⟩
  | .hbm, ⟨25, _⟩ => ⟨S262144x3, .f32⟩
  | .local _ .vmem, ⟨0, _⟩ => ⟨S2048x63, .f32⟩
  | .local _ .vmem, ⟨1, _⟩ => ⟨S2048x63, .f32⟩
  | .local _ .vmem, ⟨2, _⟩ => ⟨S63x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S319x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x4, .f32⟩
  | .local _ .vmem, ⟨17, _⟩ => ⟨S4, .f32⟩
  | .local _ .vmem, ⟨18, _⟩ => ⟨S256x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64x3, .f32⟩
  | .local _ .vmem, ⟨23, _⟩ => ⟨S3, .f32⟩
  | .local _ .vmem, ⟨24, _⟩ => ⟨S2048x1, .f32⟩
  | .local _ .vmem, ⟨25, _⟩ => ⟨S2048x1, .f32⟩
  | .local _ .vmem, ⟨26, _⟩ => ⟨S2048x3, .f32⟩
  | .local _ .vmem, ⟨27, _⟩ => ⟨S2048x3, .f32⟩
  | .local _ .vmem, ⟨28, _⟩ => ⟨S2048x3, .f32⟩
  | .local _ .vmem, ⟨29, _⟩ => ⟨S2048x3, .f32⟩
  | _, _ => ⟨S262144x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_stg25_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc0_sem24_0 : DmaSem sig := 26
abbrev cc0_sem24_1 : DmaSem sig := 27
abbrev cc0_sem25_0 : DmaSem sig := 28
abbrev cc0_sem25_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S319x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x3 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2048x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x3 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2048x3 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  inb_S2048x63_S2048x63_0_0 : ∀ a, (![0, 0] : Fin 2 → Nat) a + S2048x63.size a ≤ S2048x63.size a
  h_S2048x63 : 0 < S2048x63.numel
  bitsLt_bf16_f32 : FTy.bits .bf16 < FTy.bits .f32
  inb_S63x256_S63x256_0_0 : ∀ a, (![0, 0] : Fin 2 → Nat) a + S63x256.size a ≤ S63x256.size a
  h_S63x256 : 0 < S63x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  concatenates_S2048x63_S2048x256_S2048x319_d1 : Shape.Concatenates [S2048x63, S2048x256] S2048x319 1
  inb_S319x256_S319x256_0_0 : ∀ a, (![0, 0] : Fin 2 → Nat) a + S319x256.size a ≤ S319x256.size a
  h_S319x256 : 0 < S319x256.numel
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S2048x4 : S1x4.Broadcasts S2048x4
  slices_S2048x4_o0_0_S2048x1 : S2048x4.Slices ![0, 0] S2048x1
  slices_S2048x4_o0_1_S2048x3 : S2048x4.Slices ![0, 1] S2048x3
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S2048x3 : S1x3.Broadcasts S2048x3
  reduces_S2048x3_S2048 : S2048x3.Reduces [1] S2048
  shapeCasts_S2048_S2048x1 : S2048.ShapeCasts S2048x1
  broadcasts_S2048x1_S2048x3 : S2048x1.Broadcasts S2048x3
  inb_S2048x1_S2048x1_0_0 : ∀ a, (![0, 0] : Fin 2 → Nat) a + S2048x1.size a ≤ S2048x1.size a
  h_S2048x1 : 0 < S2048x1.numel
  inb_S2048x3_S2048x3_0_0 : ∀ a, (![0, 0] : Fin 2 → Nat) a + S2048x3.size a ≤ S2048x3.size a
  h_S2048x3 : 0 < S2048x3.numel
  dot_S2048x63_S63x256_S2048x256_1_0_0_1_n_n_wf : DotDims.WF S2048x63 S63x256 S2048x256 [1] [0] [0] [1] [] []
  dot_S2048x256_S256x256_S2048x256_1_0_0_1_n_n_wf : DotDims.WF S2048x256 S256x256 S2048x256 [1] [0] [0] [1] [] []
  dot_S2048x319_S319x256_S2048x256_1_0_0_1_n_n_wf : DotDims.WF S2048x319 S319x256 S2048x256 [1] [0] [0] [1] [] []
  dot_S2048x256_S256x4_S2048x4_1_0_0_1_n_n_wf : DotDims.WF S2048x256 S256x4 S2048x4 [1] [0] [0] [1] [] []
  dot_S2048x256_S256x64_S2048x64_1_0_0_1_n_n_wf : DotDims.WF S2048x256 S256x64 S2048x64 [1] [0] [0] [1] [] []
  dot_S2048x64_S64x64_S2048x64_1_0_0_1_n_n_wf : DotDims.WF S2048x64 S64x64 S2048x64 [1] [0] [0] [1] [] []
  dot_S2048x64_S64x3_S2048x3_1_0_0_1_n_n_wf : DotDims.WF S2048x64 S64x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x63.size a ≤ S262144x63.size a
  hwx0_0 : ∀ i : grid0.Coords, EltTy.bits .f32 = 32 ∨ (Rect.block (s := S262144x63) S2048x63.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x256.size a ≤ S63x256.size a
  hwx0_1 : ∀ i : grid0.Coords, EltTy.bits .f32 = 32 ∨ (Rect.block (s := S63x256) S63x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S319x256.size a ≤ S319x256.size a
  hwx0_9 : ∀ i : grid0.Coords, EltTy.bits .f32 = 32 ∨ (Rect.block (s := S319x256) S319x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x4.size a ≤ S256x4.size a
  hwx0_15 : ∀ i : grid0.Coords, EltTy.bits .f32 = 32 ∨ (Rect.block (s := S256x4) S256x4.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S4.size a ≤ S4.size a
  hwx0_16 : ∀ i : grid0.Coords, EltTy.bits .f32 = 32 ∨ (Rect.block (s := S4) S4.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x64.size a ≤ S256x64.size a
  hwx0_17 : ∀ i : grid0.Coords, EltTy.bits .f32 = 32 ∨ (Rect.block (s := S256x64) S256x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64.size a ≤ S64.size a
  hwx0_18 : ∀ i : grid0.Coords, EltTy.bits .f32 = 32 ∨ (Rect.block (s := S64) S64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x64.size a ≤ S64x64.size a
  hwx0_19 : ∀ i : grid0.Coords, EltTy.bits .f32 = 32 ∨ (Rect.block (s := S64x64) S64x64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64.size a ≤ S64.size a
  hwx0_20 : ∀ i : grid0.Coords, EltTy.bits .f32 = 32 ∨ (Rect.block (s := S64) S64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64x3.size a ≤ S64x3.size a
  hwx0_21 : ∀ i : grid0.Coords, EltTy.bits .f32 = 32 ∨ (Rect.block (s := S64x3) S64x3.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S3.size a ≤ S3.size a
  hwx0_22 : ∀ i : grid0.Coords, EltTy.bits .f32 = 32 ∨ (Rect.block (s := S3) S3.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x1.size a ≤ S262144x1.size a
  hwx0_23 : ∀ i : grid0.Coords, EltTy.bits .f32 = 32 ∨ (Rect.block (s := S262144x1) S2048x1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x3.size a ≤ S262144x3.size a
  hwx0_24 : ∀ i : grid0.Coords, EltTy.bits .f32 = 32 ∨ (Rect.block (s := S262144x3) S2048x3.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2048x3.size a ≤ S262144x3.size a
  hwx0_25 : ∀ i : grid0.Coords, EltTy.bits .f32 = 32 ∨ (Rect.block (s := S262144x3) S2048x3.size (cc0_transform_25 i) (hinb0_25 i)).WholeWords (EltTy.packing .f32)

variable [Facts₀]

def dot_S2048x63_S63x256_S2048x256_1_0_0_1_n_n : DotDims S2048x63 S63x256 S2048x256 where
  lhsContracting := [1]
  rhsContracting := [0]
  lhsNonContracting := [0]
  rhsNonContracting := [1]
  lhsBatch := []
  rhsBatch := []
  wf := dot_S2048x63_S63x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x319_S319x256_S2048x256_1_0_0_1_n_n : DotDims S2048x319 S319x256 S2048x256 where
  lhsContracting := [1]
  rhsContracting := [0]
  lhsNonContracting := [0]
  rhsNonContracting := [1]
  lhsBatch := []
  rhsBatch := []
  wf := dot_S2048x319_S319x256_S2048x256_1_0_0_1_n_n_wf
def dot_S2048x256_S256x4_S2048x4_1_0_0_1_n_n : DotDims S2048x256 S256x4 S2048x4 where
  lhsContracting := [1]
  rhsContracting := [0]
  lhsNonContracting := [0]
  rhsNonContracting := [1]
  lhsBatch := []
  rhsBatch := []
  wf := dot_S2048x256_S256x4_S2048x4_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf

abbrev win0_0 : Pipeline.Window sig grid0 :=
  Pipeline.Window.ofSpec (Memref.whole main_arg0) S2048x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S63x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S319x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S4.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S64x3.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S3.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0_0) S2048x1.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v0_1) S2048x3.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v0_2) S2048x3.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S262144x63 : Shape := ⟨2, ![262144, 63]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S256x64 : Shape := ⟨2, ![256, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S262144x256 : Shape := ⟨2, ![262144, 256]⟩
abbrev S1x256 : Shape := ⟨2, ![1, 256]⟩
abbrev S_ : Shape := ⟨0, ![]⟩
abbrev S262144x319 : Shape := ⟨2, ![262144, 319]⟩
abbrev S262144x4 : Shape := ⟨2, ![262144, 4]⟩
abbrev S1x4 : Shape := ⟨2, ![1, 4]⟩
abbrev S262144x1 : Shape := ⟨2, ![262144, 1]⟩
abbrev S262144x3 : Shape := ⟨2, ![262144, 3]⟩
abbrev S262144x64 : Shape := ⟨2, ![262144, 64]⟩
abbrev S1x64 : Shape := ⟨2, ![1, 64]⟩
abbrev S1x3 : Shape := ⟨2, ![1, 3]⟩
abbrev S262144 : Shape := ⟨1, ![262144]⟩

abbrev nBuf : Space → Nat
  | .hbm => 136
  | .vmem => 0
  | .smem => 0
  | _ => 0

abbrev hbmTy0_0 (i : Nat) : BufTy := match i % 128 with
  | 0 => ⟨S262144x63, .f32⟩
  | 1 => ⟨S63x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S319x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x4, .f32⟩
  | 16 => ⟨S4, .f32⟩
  | 17 => ⟨S256x64, .f32⟩
  | 18 => ⟨S64, .f32⟩
  | 19 => ⟨S64x64, .f32⟩
  | 20 => ⟨S64, .f32⟩
  | 21 => ⟨S64x3, .f32⟩
  | 22 => ⟨S3, .f32⟩
  | 23 => ⟨S262144x256, .f32⟩
  | 24 => ⟨S1x256, .f32⟩
  | 25 => ⟨S262144x256, .f32⟩
  | 26 => ⟨S262144x256, .f32⟩
  | 27 => ⟨S_, .f32⟩
  | 28 => ⟨S262144x256, .f32⟩
  | 29 => ⟨S262144x256, .f32⟩
  | 30 => ⟨S262144x256, .f32⟩
  | 31 => ⟨S1x256, .f32⟩
  | 32 => ⟨S262144x256, .f32⟩
  | 33 => ⟨S262144x256, .f32⟩
  | 34 => ⟨S_, .f32⟩
  | 35 => ⟨S262144x256, .f32⟩
  | 36 => ⟨S262144x256, .f32⟩
  | 37 => ⟨S262144x256, .f32⟩
  | 38 => ⟨S1x256, .f32⟩
  | 39 => ⟨S262144x256, .f32⟩
  | 40 => ⟨S262144x256, .f32⟩
  | 41 => ⟨S_, .f32⟩
  | 42 => ⟨S262144x256, .f32⟩
  | 43 => ⟨S262144x256, .f32⟩
  | 44 => ⟨S262144x256, .f32⟩
  | 45 => ⟨S1x256, .f32⟩
  | 46 => ⟨S262144x256, .f32⟩
  | 47 => ⟨S262144x256, .f32⟩
  | 48 => ⟨S_, .f32⟩
  | 49 => ⟨S262144x256, .f32⟩
  | 50 => ⟨S262144x256, .f32⟩
  | 51 => ⟨S262144x319, .f32⟩
  | 52 => ⟨S262144x256, .f32⟩
  | 53 => ⟨S1x256, .f32⟩
  | 54 => ⟨S262144x256, .f32⟩
  | 55 => ⟨S262144x256, .f32⟩
  | 56 => ⟨S_, .f32⟩
  | 57 => ⟨S262144x256, .f32⟩
  | 58 => ⟨S262144x256, .f32⟩
  | 59 => ⟨S262144x256, .f32⟩
  | 60 => ⟨S1x256, .f32⟩
  | 61 => ⟨S262144x256, .f32⟩
  | 62 => ⟨S262144x256, .f32⟩
  | 63 => ⟨S_, .f32⟩
  | 64 => ⟨S262144x256, .f32⟩
  | 65 => ⟨S262144x256, .f32⟩
  | 66 => ⟨S262144x256, .f32⟩
  | 67 => ⟨S1x256, .f32⟩
  | 68 => ⟨S262144x256, .f32⟩
  | 69 => ⟨S262144x256, .f32⟩
  | 70 => ⟨S_, .f32⟩
  | 71 => ⟨S262144x256, .f32⟩
  | 72 => ⟨S262144x256, .f32⟩
  | 73 => ⟨S262144x4, .f32⟩
  | 74 => ⟨S1x4, .f32⟩
  | 75 => ⟨S262144x4, .f32⟩
  | 76 => ⟨S262144x4, .f32⟩
  | 77 => ⟨S262144x1, .f32⟩
  | 78 => ⟨S262144x3, .f32⟩
  | 79 => ⟨S_, .f32⟩
  | 80 => ⟨S262144x1, .f32⟩
  | 81 => ⟨S262144x1, .f32⟩
  | 82 => ⟨S262144x1, .f32⟩
  | 83 => ⟨S262144x1, .f32⟩
  | 84 => ⟨S262144x1, .i1⟩
  | 85 => ⟨S262144x1, .f32⟩
  | 86 => ⟨S262144x1, .f32⟩
  | 87 => ⟨S262144x1, .f32⟩
  | 88 => ⟨S262144x1, .f32⟩
  | 89 => ⟨S262144x1, .f32⟩
  | 90 => ⟨S262144x1, .f32⟩
  | 91 => ⟨S262144x1, .f32⟩
  | 92 => ⟨S262144x1, .f32⟩
  | 93 => ⟨S262144x3, .f32⟩
  | 94 => ⟨S262144x3, .f32⟩
  | 95 => ⟨S_, .f32⟩
  | 96 => ⟨S262144x3, .f32⟩
  | 97 => ⟨S262144x3, .f32⟩
  | 98 => ⟨S_, .f32⟩
  | 99 => ⟨S262144x3, .f32⟩
  | 100 => ⟨S262144x3, .f32⟩
  | 101 => ⟨S_, .f32⟩
  | 102 => ⟨S262144x3, .f32⟩
  | 103 => ⟨S262144x3, .f32⟩
  | 104 => ⟨S_, .f32⟩
  | 105 => ⟨S262144x3, .f32⟩
  | 106 => ⟨S262144x3, .f32⟩
  | 107 => ⟨S262144x64, .f32⟩
  | 108 => ⟨S1x64, .f32⟩
  | 109 => ⟨S262144x64, .f32⟩
  | 110 => ⟨S262144x64, .f32⟩
  | 111 => ⟨S_, .f32⟩
  | 112 => ⟨S262144x64, .f32⟩
  | 113 => ⟨S262144x64, .f32⟩
  | 114 => ⟨S262144x64, .f32⟩
  | 115 => ⟨S1x64, .f32⟩
  | 116 => ⟨S262144x64, .f32⟩
  | 117 => ⟨S262144x64, .f32⟩
  | 118 => ⟨S_, .f32⟩
  | 119 => ⟨S262144x64, .f32⟩
  | 120 => ⟨S262144x64, .f32⟩
  | 121 => ⟨S262144x3, .f32⟩
  | 122 => ⟨S1x3, .f32⟩
  | 123 => ⟨S262144x3, .f32⟩
  | 124 => ⟨S262144x3, .f32⟩
  | 125 => ⟨S262144x3, .f32⟩
  | 126 => ⟨S262144x3, .f32⟩
  | 127 => ⟨S_, .f32⟩
  | _ => ⟨S262144x63, .f32⟩

abbrev hbmTy0_1 (i : Nat) : BufTy := match i % 128 with
  | 0 => ⟨S262144, .f32⟩
  | 1 => ⟨S262144x1, .f32⟩
  | 2 => ⟨S262144x1, .f32⟩
  | 3 => ⟨S_, .f32⟩
  | 4 => ⟨S262144x1, .f32⟩
  | 5 => ⟨S262144x1, .f32⟩
  | 6 => ⟨S262144x3, .f32⟩
  | 7 => ⟨S262144x3, .f32⟩
  | _ => ⟨S262144x63, .f32⟩

abbrev hbmTy (i : Nat) : BufTy := match i / 128 with
  | 0 => hbmTy0_0 i
  | 1 => hbmTy0_1 i
  | _ => ⟨S262144x63, .f32⟩

abbrev bufTy : (tb : Table) → Fin (tcTables nBuf tb) → BufTy
  | .hbm, ⟨i, _⟩ => hbmTy i
  | _, _ => ⟨S262144x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_cst : Ref sig .tc := ⟨.hbm, 41, rfl⟩
abbrev main_call2_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call3_cst : Ref sig .tc := ⟨.hbm, 48, rfl⟩
abbrev main_call3_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call4_cst : Ref sig .tc := ⟨.hbm, 56, rfl⟩
abbrev main_call4_v0 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_call5_cst : Ref sig .tc := ⟨.hbm, 63, rfl⟩
abbrev main_call5_v0 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call6_cst : Ref sig .tc := ⟨.hbm, 70, rfl⟩
abbrev main_call6_v0 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call7_cst : Ref sig .tc := ⟨.hbm, 79, rfl⟩
abbrev main_call7_v0 : Ref sig .tc := ⟨.hbm, 80, rfl⟩
abbrev main_call7_v1 : Ref sig .tc := ⟨.hbm, 81, rfl⟩
abbrev main_call7_v2 : Ref sig .tc := ⟨.hbm, 82, rfl⟩
abbrev main_call7_v3 : Ref sig .tc := ⟨.hbm, 83, rfl⟩
abbrev main_call7_v4 : Ref sig .tc := ⟨.hbm, 84, rfl⟩
abbrev main_call7_v5 : Ref sig .tc := ⟨.hbm, 85, rfl⟩
abbrev main_call7_v6 : Ref sig .tc := ⟨.hbm, 86, rfl⟩
abbrev main_call7_v7 : Ref sig .tc := ⟨.hbm, 87, rfl⟩
abbrev main_call7_v8 : Ref sig .tc := ⟨.hbm, 88, rfl⟩
abbrev main_call7_v9 : Ref sig .tc := ⟨.hbm, 89, rfl⟩
abbrev main_call7_v10 : Ref sig .tc := ⟨.hbm, 90, rfl⟩
abbrev main_call7_v11 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst : Ref sig .tc := ⟨.hbm, 95, rfl⟩
abbrev main_v45 : Ref sig .tc := ⟨.hbm, 96, rfl⟩
abbrev main_v46 : Ref sig .tc := ⟨.hbm, 97, rfl⟩
abbrev main_cst_0 : Ref sig .tc := ⟨.hbm, 98, rfl⟩
abbrev main_v47 : Ref sig .tc := ⟨.hbm, 99, rfl⟩
abbrev main_v48 : Ref sig .tc := ⟨.hbm, 100, rfl⟩
abbrev main_cst_1 : Ref sig .tc := ⟨.hbm, 101, rfl⟩
abbrev main_v49 : Ref sig .tc := ⟨.hbm, 102, rfl⟩
abbrev main_v50 : Ref sig .tc := ⟨.hbm, 103, rfl⟩
abbrev main_cst_2 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_call8_cst : Ref sig .tc := ⟨.hbm, 111, rfl⟩
abbrev main_call8_v0 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_call9_cst : Ref sig .tc := ⟨.hbm, 118, rfl⟩
abbrev main_call9_v0 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_call10_v0 : Ref sig .tc := ⟨.hbm, 126, rfl⟩
abbrev main_call10_cst : Ref sig .tc := ⟨.hbm, 127, rfl⟩
abbrev main_call10_v1 : Ref sig .tc := ⟨.hbm, 128, rfl⟩
abbrev main_call10_v2 : Ref sig .tc := ⟨.hbm, 129, rfl⟩
abbrev main_v68 : Ref sig .tc := ⟨.hbm, 130, rfl⟩
abbrev main_cst_3 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  concatenates_S262144x63_S262144x256_S262144x319_d1 : Shape.Concatenates [S262144x63, S262144x256] S262144x319 1
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  slices_S262144x4_S262144x1_0_0 : S262144x4.Slices ![0, 0] S262144x1
  slices_S262144x4_S262144x3_0_1 : S262144x4.Slices ![0, 1] S262144x3
  bcast_S_S262144x1 : S_.BroadcastsInDim S262144x1 (![] : Fin 0 → Fin S262144x1.rank)
  bcast_S_S262144x3 : S_.BroadcastsInDim S262144x3 (![] : Fin 0 → Fin S262144x3.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  reducesTo_S262144x3_S262144_d1 : S262144x3.ReducesTo [1] S262144
  h_S_ : 0 < S_.numel
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x4_S262144x4_1_0_0_1_n_n_wf : DotDims.WF S262144x256 S256x4 S262144x4 [1] [0] [0] [1] [] []
  dot_S262144x256_S256x64_S262144x64_1_0_0_1_n_n_wf : DotDims.WF S262144x256 S256x64 S262144x64 [1] [0] [0] [1] [] []
  dot_S262144x64_S64x64_S262144x64_1_0_0_1_n_n_wf : DotDims.WF S262144x64 S64x64 S262144x64 [1] [0] [0] [1] [] []
  dot_S262144x64_S64x3_S262144x3_1_0_0_1_n_n_wf : DotDims.WF S262144x64 S64x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x4_S262144x4_1_0_0_1_n_n : DotDims S262144x256 S256x4 S262144x4 where
  lhsContracting := [1]
  rhsContracting := [0]
  lhsNonContracting := [0]
  rhsNonContracting := [1]
  lhsBatch := []
  rhsBatch := []
  wf := dot_S262144x256_S256x4_S262144x4_1_0_0_1_n_n_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x3_S262144x3_1_0_0_1_n_n : DotDims S262144x64 S64x3 S262144x3 where
  lhsContracting := [1]
  rhsContracting := [0]
  lhsNonContracting := [0]
  rhsNonContracting := [1]
  lhsBatch := []
  rhsBatch := []
  wf := dot_S262144x64_S64x3_S262144x3_1_0_0_1_n_n_wf

class Facts : Prop extends Facts₀ where

variable [Facts]
-- ==== Proof.RowNet.lean ====
/-
  The network, one sample at a time.

  Every sample (a row x of 63 features) goes through the same small network, independently of the other rows:

    trunk    seven affine layers each followed by max(·, 0): 63 → 256 → 256 → 256 → 256, then the input row is put back
             in front of the 256 hidden values (63 + 256 = 319) and three more layers 319 → 256 → 256 → 256 give the
             embedding \`geo\`; an eighth affine layer 256 → 4 without the maximum gives four raw outputs;
    density  softplus of raw output 0:  max(a, 0) + log(1 + e^{-|a|});
    colour   for raw outputs 1, 2, 3:   1/(1 + e^{-a}) · c₁ − c₂, with c₁ and c₂ the two single-precision constants the
             programs carry (both programs carry the same two words, so they are never evaluated);
    normal   three more layers 256 → 64 → 64 → 3 on \`geo\` (the last without the maximum), tanh of each of the three, and
             the resulting 3-vector divided by max(its Euclidean length, ε), ε again a shared single-precision word.

  An affine layer is h ↦ (∑ᵢ hᵢ · W(i, q)) + b(q). All of it is read on the extended reals, where a change of float
  format is the identity; nothing here needs the inputs to be finite, because the two programs apply the same
  operations to the same values in the same order, and only spell a few of them differently (below, \`softplus\`).
-/
import Idealize.ShloMosaic.Lib.ValueIdx
import Idealize.ShloMosaic.PureOps.Ideal.Laws

noncomputable section

namespace Cert.RowNet

open Idealize.ShloMosaic Idealize.ShloMosaic.ValueIdx

/-- A \`k × m\` matrix and an \`m\`-vector of extended reals, indexed as the programs' arrays are. -/
abbrev Mat (k m : ℕ) : Type := (⟨2, ![k, m]⟩ : Shape).Idx → EReal
abbrev Vc (m : ℕ) : Type := (⟨1, ![m]⟩ : Shape).Idx → EReal

/-- Row \`r\` of a matrix. -/
def row {a n : ℕ} (X : Mat a n) (r : Fin a) : Fin n → EReal := fun i => X (ix2 r i)

/-- An affine layer: \`h ↦ h · W + b\`. -/
def affine {k m : ℕ} (W : Mat k m) (b : Vc m) (h : Fin k → EReal) : Fin m → EReal :=
  fun q => (∑ i : Fin k, h i * W (ix2 i q)) + b (ix1 q)

/-- An affine layer followed by the maximum with zero. -/
def layer {k m : ℕ} (W : Mat k m) (b : Vc m) (h : Fin k → EReal) : Fin m → EReal :=
  fun q => max (affine W b h q) 0

/-- The input row in front of the hidden row. -/
def skip (x : Fin 63 → EReal) (h : Fin 256 → EReal) : Fin 319 → EReal :=
  fun i => if hi : i.val < 63 then x ⟨i.val, hi⟩ else h ⟨i.val - 63, by have := i.isLt; omega⟩

/-- The network's weights and biases. -/
structure Params where
  W0 : Mat 63 256
  b0 : Vc 256
  W1 : Mat 256 256
  b1 : Vc 256
  W2 : Mat 256 256
  b2 : Vc 256
  W3 : Mat 256 256
  b3 : Vc 256
  W4 : Mat 319 256
  b4 : Vc 256
  W5 : Mat 256 256
  b5 : Vc 256
  W6 : Mat 256 256
  b6 : Vc 256
  W7 : Mat 256 4
  b7 : Vc 4
  nW0 : Mat 256 64
  nb0 : Vc 64
  nW1 : Mat 64 64
  nb1 : Vc 64
  nW2 : Mat 64 3
  nb2 : Vc 3

variable (P : Params)

/-- The first three layers. -/
def hidden3 (x : Fin 63 → EReal) : Fin 256 → EReal :=
  layer P.W2 P.b2 (layer P.W1 P.b1 (layer P.W0 P.b0 x))

/-- The embedding: the fourth layer, the input put back in front, three more layers. -/
def geo (x : Fin 63 → EReal) : Fin 256 → EReal :=
  layer P.W6 P.b6 (layer P.W5 P.b5 (layer P.W4 P.b4 (skip x (layer P.W3 P.b3 (hidden3 P x)))))

/-- The four raw outputs. -/
def raw (x : Fin 63 → EReal) : Fin 4 → EReal := affine P.W7 P.b7 (geo P x)

/-- \`log (1 + eᵃ)\` in its overflow-safe spelling. -/
def softplus (a : EReal) : EReal := max a 0 + Ideal.log1p (Ideal.exp (-(max a (-a))))

def density (x : Fin 63 → EReal) : EReal := softplus (raw P x 0)

def colour (x : Fin 63 → EReal) (j : Fin 3) : EReal :=
  Ideal.logistic (raw P x ⟨j.val + 1, by have := j.isLt; omega⟩) * Ideal.ofBits .f32 0x3F804189#32 - Ideal.ofBits .f32 0x3A83126F#32

/-- The normal head before it is normalised. -/
def tanhHead (x : Fin 63 → EReal) : Fin 3 → EReal :=
  fun j => Ideal.tanh (affine P.nW2 P.nb2 (layer P.nW1 P.nb1 (layer P.nW0 P.nb0 (geo P x))) j)

/-- A 3-vector over the larger of its Euclidean length and ε. -/
def unitize (v : Fin 3 → EReal) : Fin 3 → EReal :=
  fun j => Ideal.div (v j) (max (Ideal.sqrt (∑ k : Fin 3, v k * v k)) (Ideal.ofBits .f32 0x2B8CBCCC#32))

def normal (x : Fin 63 → EReal) : Fin 3 → EReal := unitize (tanhHead P x)

/-! ## The three result arrays as functions of the argument arrays -/

def Gdensity (X : Mat 262144 63) : Mat 262144 1 := fun i => density P (row X (i 0))
def Gcolour (X : Mat 262144 63) : Mat 262144 3 := fun i => colour P (row X (i 0)) (i 1)
def Gnormal (X : Mat 262144 63) : Mat 262144 3 := fun i => normal P (row X (i 0)) (i 1)

/-! ## The two spellings of softplus

Both programs guard the sum with a test for a not-a-number (\`a − 0 ≠ a − 0\`, in an ordered and an unordered spelling),
which on the extended reals never holds; one writes the exponent as \`0 − |a − 0|\`, the other as \`−|a − 0|\`. -/

theorem cmp_one_self (a : EReal) : Ideal.cmp .one a a = 0#1 := by simp [Ideal.cmp]
theorem cmp_une_self (a : EReal) : Ideal.cmp .une a a = 0#1 := by simp [Ideal.cmp]

theorem softplus_kernel (a : EReal) :
    Scalar.select (Ideal.cmp .one (a - 0) (a - 0)) (a + 0) (max a 0 + Ideal.log1p (Ideal.exp (0 - max (a - 0) (-(a - 0)))))
      = softplus a := by
  rw [cmp_one_self, select_zero, sub_zero, zero_sub]; rfl

theorem softplus_host (a : EReal) :
    Scalar.select (Ideal.cmp .une (a - 0) (a - 0)) (a + 0) (max a 0 + Ideal.log1p (Ideal.exp (-(max (a - 0) (-(a - 0))))))
      = softplus a := by
  rw [cmp_une_self, select_zero, sub_zero]; rfl

end Cert.RowNet

end
-- ==== Proof.LibDenseLayer.lean ====
/-
  A matrix product with one contracted axis, read at an entry.

  For a left operand of shape [a, k] and a right operand of shape [k, b], contracted over the left's columns and the right's
  rows with no batch axes, the entry (p, q) of the product is the sum over i < k of left (p, i) · right (i, q). The
  dimension record names its contraction index by a shape of its own; the sum over that index is carried to the sum over
  \`Fin k\` by the bijection that reads the index's one coordinate. Stated once for every extent, so that each dense layer
  of a network, on a block of rows or on the whole array, is one instance.

  Beside it, the other two shapes a dense layer is printed with: a bias of shape [b] laid over the rows (as a cast to
  [1, b] followed by a broadcast, or as two broadcasts in dimensions), and two matrices laid side by side along their
  columns.
-/
import Idealize.ShloMosaic.Lib.ValueIdx
import Idealize.ShloMosaic.Lib.ValueLayout
import Idealize.ShloMosaic.Lib.Pipeline.Value
import Idealize.ShloMosaic.PureOps.Ideal.Laws

namespace Idealize.ShloMosaic.DenseLayer

open Idealize.ShloMosaic Idealize.ShloMosaic.ValueIdx

section Contraction
variable {a k b : ℕ} (d : DotDims ⟨2, ![a, k]⟩ ⟨2, ![k, b]⟩ ⟨2, ![a, b]⟩)

/-- The contraction shape of a product over one axis has rank one. -/
theorem contr_rank_one (hlc : d.lhsContracting = [1]) : d.contr.rank = 1 := by
  rw [d.rank_contr, hlc]; rfl

/-- ... and its one extent is the contracted extent \`k\`. -/
theorem contr_size_zero (hlc : d.lhsContracting = [1]) :
    d.contr.size ⟨0, by rw [contr_rank_one d hlc]; exact Nat.one_pos⟩ = k := by
  have h := d.size_contr 0 (by rw [hlc]; exact Nat.one_pos)
  refine h.trans ?_
  have e : d.lhsContracting[0]'(by rw [hlc]; exact Nat.one_pos) = (1 : Fin 2) := by simp [hlc]
  rw [e]; rfl

/-- The left operand's row at a product entry is the entry's row. -/
theorem lhs_row (hlb : d.lhsBatch = []) (hln : d.lhsNonContracting = [0]) (j : (⟨2, ![a, b]⟩ : Shape).Idx) (c : d.contr.Idx) :
    (d.lhsIdx j c 0).val = (j 0).val := by
  unfold DotDims.lhsIdx
  rw [dif_neg (by rw [hlb]; exact List.not_mem_nil), dif_pos (by rw [hln]; exact List.mem_singleton.mpr rfl)]
  simp only [Fin.val_cast]
  have key : ∀ (x y : Nat) (hx : x < 2) (hy : y < 2), x = y → (j ⟨x, hx⟩).val = (j ⟨y, hy⟩).val :=
    fun x y hx hy h => by subst h; rfl
  exact key _ _ _ _ (by simp [hlb, hln])

/-- The right operand's column at a product entry is the entry's column. -/
theorem rhs_col (hlb : d.lhsBatch = []) (hln : d.lhsNonContracting = [0]) (hrb : d.rhsBatch = []) (hrn : d.rhsNonContracting = [1])
    (j : (⟨2, ![a, b]⟩ : Shape).Idx) (c : d.contr.Idx) :
    (d.rhsIdx j c 1).val = (j 1).val := by
  unfold DotDims.rhsIdx
  rw [dif_neg (by rw [hrb]; exact List.not_mem_nil), dif_pos (by rw [hrn]; exact List.mem_singleton.mpr rfl)]
  simp only [Fin.val_cast]
  have key : ∀ (x y : Nat) (hx : x < 2) (hy : y < 2), x = y → (j ⟨x, hx⟩).val = (j ⟨y, hy⟩).val :=
    fun x y hx hy h => by subst h; rfl
  exact key _ _ _ _ (by simp [hlb, hln, hrn])

/-- The sum over the record's contraction index is the sum over the contracted extent: entry \`(p, q)\` of the product is
    \`∑ i, l (p, i) · r (i, q)\`. -/
theorem sum_contr (hlb : d.lhsBatch = []) (hln : d.lhsNonContracting = [0]) (hlc : d.lhsContracting = [1])
    (hrb : d.rhsBatch = []) (hrn : d.rhsNonContracting = [1]) (hrc : d.rhsContracting = [0])
    (l : (⟨2, ![a, k]⟩ : Shape).Idx → EReal) (r : (⟨2, ![k, b]⟩ : Shape).Idx → EReal) (p : Fin a) (q : Fin b) :
    ∑ c : d.contr.Idx, l (d.lhsIdx (ix2 p q) c) * r (d.rhsIdx (ix2 p q) c) = ∑ i : Fin k, l (ix2 p i) * r (ix2 i q) := by
  rw [← Equiv.sum_comp (contrEquiv1 d k (contr_rank_one d hlc) (contr_size_zero d hlc)).symm]
  refine Finset.sum_congr rfl fun i _ => ?_
  have hi := contrEquiv1_symm_val d k (contr_rank_one d hlc) (contr_size_zero d hlc) i
  have el : d.lhsIdx (ix2 p q) ((contrEquiv1 d k (contr_rank_one d hlc) (contr_size_zero d hlc)).symm i) = ix2 p i :=
    funext fun ax => Fin.ext (by
      match ax with
      | ⟨0, _⟩ => exact lhs_row d hlb hln _ _
      | ⟨1, _⟩ => exact (d.lhsIdx_val_of_single hlc _ _).trans hi)
  have er : d.rhsIdx (ix2 p q) ((contrEquiv1 d k (contr_rank_one d hlc) (contr_size_zero d hlc)).symm i) = ix2 i q :=
    funext fun ax => Fin.ext (by
      match ax with
      | ⟨0, _⟩ => exact (d.rhsIdx_val_of_single hrc _ _).trans hi
      | ⟨1, _⟩ => exact rhs_col d hlb hln hrb hrn _ _)
  rw [el, er]

end Contraction

/-! ## The two printed products at the ideal values -/

section Products
variable {a k b : ℕ} (d : DotDims ⟨2, ![a, k]⟩ ⟨2, ![k, b]⟩ ⟨2, ![a, b]⟩) {φ₁ φ₂ : FTy}

/-- A kernel's matrix product into the zero accumulator, at entry \`(p, q)\`: \`∑ i, l (p, i) · r (i, q)\`. -/
theorem matmul_zero_entry (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ i : Fin k, l (ix2 p i) * r (ix2 i q) := by
  show FloatOps.matmul d prec l r (constant ⟨2, ![a, b]⟩ .f32 0x00000000#32) (ix2 p q) = _
  rw [Ideal.matmul_constant_zero_apply]
  exact sum_contr d hlb hln hlc hrb hrn hrc l r p q

/-- The host's product of the same operands, at entry \`(p, q)\`: the same sum. -/
theorem dotGeneral_entry (hlb : d.lhsBatch = []) (hln : d.lhsNonContracting = [0]) (hlc : d.lhsContracting = [1])
    (hrb : d.rhsBatch = []) (hrn : d.rhsNonContracting = [1]) (hrc : d.rhsContracting = [0])
    (prec : Option ContractPrecision) (l : FVec Ideal ⟨2, ![a, k]⟩ φ₁) (r : FVec Ideal ⟨2, ![k, b]⟩ φ₂) (p : Fin a) (q : Fin b) :
    Host.dotGeneral d prec l r (ix2 p q) = ∑ i : Fin k, l (ix2 p i) * r (ix2 i q) := by
  show FloatOps.dotGeneral d prec .single l r (ix2 p q) = _
  rw [Ideal.dotGeneral_apply]
  exact sum_contr d hlb hln hlc hrb hrn hrc l r p q

end Products

/-! ## A bias laid over the rows, and two matrices side by side -/

section Layout
variable {α : Type}

/-- A \`[b]\` array cast to \`[1, b]\` and broadcast to \`[a, b]\` reads, at \`(p, q)\`, the array at \`q\`. -/
theorem bias_rows_entry {a b : ℕ} (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hs) hb (ix2 p q) = v (ix1 q) :=
  (broadcastTo_1b_ab_apply _ hb p q).trans (shapeCast_a_1a_apply v hs 0 q)

/-- Two matrices of \`a\` rows joined along their columns read, at a column below the first's width, the first matrix. -/
theorem concat_cols_left {a n₁ n₂ n : ℕ} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (p : Fin a) (c : Fin n) (c₁ : Fin n₁) (hc : c₁.val = c.val) :
    concatenate ⟨2, ![a, n]⟩ 1 [⟨⟨2, ![a, n₁]⟩, x₁⟩, ⟨⟨2, ![a, n₂]⟩, x₂⟩] h (ix2 p c) = x₁ (ix2 p c₁) :=
  concatenate_pair_apply_left 1 x₁ x₂ h (ix2 p c) rfl (ix2 p c₁) (fun bx => by
    match bx with
    | ⟨0, _⟩ => rfl
    | ⟨1, _⟩ => exact hc)

/-- ... and at a column from the first's width on, the second matrix, the first's width less. -/
theorem concat_cols_right {a n₁ n₂ n : ℕ} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (p : Fin a) (c : Fin n) (c₂ : Fin n₂) (hc : c₂.val + n₁ = c.val) :
    concatenate ⟨2, ![a, n]⟩ 1 [⟨⟨2, ![a, n₁]⟩, x₁⟩, ⟨⟨2, ![a, n₂]⟩, x₂⟩] h (ix2 p c) = x₂ (ix2 p c₂) :=
  concatenate_pair_apply_right 1 x₁ x₂ h (ix2 p c) rfl rfl (ix2 p c₂) (fun bx hbx => by
    match bx with
    | ⟨0, _⟩ => rfl
    | ⟨1, _⟩ => exact absurd rfl hbx) hc

end Layout

end Idealize.ShloMosaic.DenseLayer
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KernelProducts.lean ====
/-
  The products of the kernel's body, each read at an entry.

  The body multiplies a block of 2048 rows by seven weight matrices of different extents. Each product contracts the
  left operand's columns with the right operand's rows into a zero accumulator, so its entry (p, q) is the sum over i of
  left (p, i) · right (i, q): one instance each of the general lemma. Beside them, the block of input rows joined to
  the block of hidden rows along the columns, and the sum of a row of three.
-/
import proofs.«125031_j78632261256031_1_alg».proof.Proof.Gen.KernelIdeal.Skeleton
import proofs.«125031_j78632261256031_1_alg».proof.Proof.RowNet
import proofs.«125031_j78632261256031_1_alg».proof.Proof.LibDenseLayer
import proofs.«125031_j78632261256031_1_alg».proof.Proof.LibKeepdims

noncomputable section

namespace Cert.KernelIdeal.Rows

open Cert.KernelIdeal Cert.KernelIdeal.Gen Idealize.ShloMosaic Idealize.ShloMosaic.ValueIdx Idealize.ShloMosaic.DenseLayer
open Idealize.ShloMosaic.Keepdims Cert.RowNet

/-- The single-precision zero word is the real zero. -/
theorem zero_f32 : (Scalar.ofBits .f32 0x00000000#32 : Ideal .f32) = 0 := Ideal.ofBits_zero_f32

/-! ## The seven products of the body, each at an entry -/

theorem mm_63_256 (l : FVec Ideal S2048x63 .bf16) (r : FVec Ideal S63x256 .bf16) (p : Fin 2048) (q : Fin 256) :
    matmul dot_S2048x63_S63x256_S2048x256_1_0_0_1_n_n none l r (constant S2048x256 .f32 0x00000000#32) (ix2 p q)
      = ∑ i : Fin 63, l (ix2 p i) * r (ix2 i q) :=
  matmul_zero_entry _ rfl rfl rfl rfl rfl rfl none l r p q

theorem mm_256_256 (l : FVec Ideal S2048x256 .bf16) (r : FVec Ideal S256x256 .bf16) (p : Fin 2048) (q : Fin 256) :
    matmul dot_S2048x256_S256x256_S2048x256_1_0_0_1_n_n none l r (constant S2048x256 .f32 0x00000000#32) (ix2 p q)
      = ∑ i : Fin 256, l (ix2 p i) * r (ix2 i q) :=
  matmul_zero_entry _ rfl rfl rfl rfl rfl rfl none l r p q

theorem mm_319_256 (l : FVec Ideal S2048x319 .bf16) (r : FVec Ideal S319x256 .bf16) (p : Fin 2048) (q : Fin 256) :
    matmul dot_S2048x319_S319x256_S2048x256_1_0_0_1_n_n none l r (constant S2048x256 .f32 0x00000000#32) (ix2 p q)
      = ∑ i : Fin 319, l (ix2 p i) * r (ix2 i q) :=
  matmul_zero_entry _ rfl rfl rfl rfl rfl rfl none l r p q

theorem mm_256_4 (l : FVec Ideal S2048x256 .bf16) (r : FVec Ideal S256x4 .bf16) (p : Fin 2048) (q : Fin 4) :
    matmul dot_S2048x256_S256x4_S2048x4_1_0_0_1_n_n none l r (constant S2048x4 .f32 0x00000000#32) (ix2 p q)
      = ∑ i : Fin 256, l (ix2 p i) * r (ix2 i q) :=
  matmul_zero_entry _ rfl rfl rfl rfl rfl rfl none l r p q

theorem mm_256_64 (l : FVec Ideal S2048x256 .bf16) (r : FVec Ideal S256x64 .bf16) (p : Fin 2048) (q : Fin 64) :
    matmul dot_S2048x256_S256x64_S2048x64_1_0_0_1_n_n none l r (constant S2048x64 .f32 0x00000000#32) (ix2 p q)
      = ∑ i : Fin 256, l (ix2 p i) * r (ix2 i q) :=
  matmul_zero_entry _ rfl rfl rfl rfl rfl rfl none l r p q

theorem mm_64_64 (l : FVec Ideal S2048x64 .bf16) (r : FVec Ideal S64x64 .bf16) (p : Fin 2048) (q : Fin 64) :
    matmul dot_S2048x64_S64x64_S2048x64_1_0_0_1_n_n none l r (constant S2048x64 .f32 0x00000000#32) (ix2 p q)
      = ∑ i : Fin 64, l (ix2 p i) * r (ix2 i q) :=
  matmul_zero_entry _ rfl rfl rfl rfl rfl rfl none l r p q

theorem mm_64_3 (l : FVec Ideal S2048x64 .bf16) (r : FVec Ideal S64x3 .bf16) (p : Fin 2048) (q : Fin 3) :
    matmul dot_S2048x64_S64x3_S2048x3_1_0_0_1_n_n none l r (constant S2048x3 .f32 0x00000000#32) (ix2 p q)
      = ∑ i : Fin 64, l (ix2 p i) * r (ix2 i q) :=
  matmul_zero_entry _ rfl rfl rfl rfl rfl rfl none l r p q

/-- The input block beside the hidden block, at an entry: the input row in front of the hidden row. -/
theorem cat_entry (x : FVec Ideal S2048x63 .f32) (h : FVec Ideal S2048x256 .f32) (p : Fin 2048) (i : Fin 319) :
    concatenate S2048x319 1 [⟨S2048x63, x⟩, ⟨S2048x256, h⟩] concatenates_S2048x63_S2048x256_S2048x319_d1 (ix2 p i)
      = skip (row (a := 2048) (n := 63) x p) (fun j => h (ix2 p j)) i := by
  unfold skip
  split
  · rename_i hi
    exact concat_cols_left x h _ p i ⟨i.val, hi⟩ rfl
  · rename_i hi
    exact concat_cols_right x h _ p i ⟨i.val - 63, by have := i.isLt; omega⟩ (by show i.val - 63 + 63 = i.val; omega)

/-- The sum of a row of three, as the body's reduction over the second axis gives it. -/
theorem rowsum3 (src : FVec Ideal S2048x3 .f32) (hφ : FKind.Formats .f32) (hacc : (0x00000000#32 : BitVec 32) = 0x00000000#32) (p : Fin 2048) :
    multiReduction .add [1] S2048 src 0x00000000#32 reduces_S2048x3_S2048 hφ hacc (ix1 p) = ∑ k : Fin 3, src (ix2 p k) := by
  refine (Ideal.multiReduction_add_single src 0x00000000#32 reduces_S2048x3_S2048 hφ hacc (ix1 p)).trans ?_
  refine Finset.sum_congr rfl fun k _ => congrArg src (funext fun a => Fin.ext ?_)
  match a with
  | ⟨0, _⟩ => rfl
  | ⟨1, _⟩ => rfl

end Cert.KernelIdeal.Rows

end
-- ==== Proof.KernelTrunk.lean ====
/-
  The trunk of the kernel's body, read one entry at a time.

  The body works on a block of 2048 rows. Read at row p of the block, each value of the trunk depends on row p of the
  input block alone and is the specification's network applied to that row: a product is a sum over the contracted
  extent, a bias is read at the column, the maximum with the zero word is the maximum with zero, and the concatenation
  puts the input row in front of the hidden row.
-/
import proofs.«125031_j78632261256031_1_alg».proof.Proof.KernelProducts

noncomputable section

namespace Cert.KernelIdeal.Rows

open Cert.KernelIdeal Cert.KernelIdeal.Gen Idealize.ShloMosaic Idealize.ShloMosaic.ValueIdx Idealize.ShloMosaic.DenseLayer
open Idealize.ShloMosaic.Keepdims Cert.RowNet

/-! ## The trunk -/

/-- The fourth layer's product, of the first three layers' output. -/
theorem pay2_entry (x : Vec Ideal S2048x63 .f32) (W0 : Vec Ideal S63x256 .f32) (b0 : Vec Ideal S256 .f32)
    (W1 : Vec Ideal S256x256 .f32) (b1 : Vec Ideal S256 .f32) (W2 : Vec Ideal S256x256 .f32) (b2 : Vec Ideal S256 .f32)
    (W3 : Vec Ideal S256x256 .f32) (p : Fin 2048) (q : Fin 256) :
    k0_pay2 x W0 b0 W1 b1 W2 b2 W3 (ix2 p q)
      = ∑ i : Fin 256, layer (k := 256) (m := 256) W2 b2 (layer (k := 256) (m := 256) W1 b1 (layer (k := 63) (m := 256) W0 b0 (row (a := 2048) (n := 63) x p))) i * W3 (ix2 i q) := by
  unfold k0_pay2
  simp only [mm_63_256, mm_256_256, truncf_apply, maximumf_apply, addf_apply, broadcast_apply, bias_rows_entry, zero_f32]
  rfl

/-- The fourth layer's bias over the rows. -/
theorem pay3_entry (b3 : Vec Ideal S256 .f32) (p : Fin 2048) (q : Fin 256) : k0_pay3 b3 (ix2 p q) = b3 (ix1 q) := by
  unfold k0_pay3
  exact bias_rows_entry b3 _ _ p q

/-- From the fourth layer's product and bias to the embedding. -/
theorem pay4_entry (x : Vec Ideal S2048x63 .f32) (v34 v37 : FVec Ideal S2048x256 .f32) (W4 : Vec Ideal S319x256 .f32) (b4 : Vec Ideal S256 .f32)
    (W5 : Vec Ideal S256x256 .f32) (b5 : Vec Ideal S256 .f32) (W6 : Vec Ideal S256x256 .f32) (b6 : Vec Ideal S256 .f32)
    (p : Fin 2048) (q : Fin 256) :
    k0_pay4 x v34 v37 W4 b4 W5 b5 W6 b6 (ix2 p q)
      = layer (k := 256) (m := 256) W6 b6 (layer (k := 256) (m := 256) W5 b5 (layer (k := 319) (m := 256) W4 b4
          (skip (row (a := 2048) (n := 63) x p) (fun j => max (v34 (ix2 p j) + v37 (ix2 p j)) 0)))) q := by
  unfold k0_pay4
  simp only [mm_319_256, mm_256_256, truncf_apply, maximumf_apply, addf_apply, broadcast_apply, bias_rows_entry, zero_f32, cat_entry]
  rfl

/-- The eighth layer's product, of the embedding. -/
theorem pay5_entry (x : Vec Ideal S2048x63 .f32) (v34 v37 : FVec Ideal S2048x256 .f32) (W4 : Vec Ideal S319x256 .f32) (b4 : Vec Ideal S256 .f32)
    (W5 : Vec Ideal S256x256 .f32) (b5 : Vec Ideal S256 .f32) (W6 : Vec Ideal S256x256 .f32) (b6 : Vec Ideal S256 .f32)
    (W7 : Vec Ideal S256x4 .f32) (p : Fin 2048) (q : Fin 4) :
    k0_pay5 x v34 v37 W4 b4 W5 b5 W6 b6 W7 (ix2 p q)
      = ∑ i : Fin 256, k0_pay4 x v34 v37 W4 b4 W5 b5 W6 b6 (ix2 p i) * W7 (ix2 i q) := by
  unfold k0_pay5
  simp only [mm_256_4, truncf_apply]

/-- The four raw outputs: the product plus the bias. -/
theorem pay7_entry (v75 : FVec Ideal S2048x4 .f32) (b7 : Vec Ideal S4 .f32) (p : Fin 2048) (q : Fin 4) :
    k0_pay7 v75 (k0_pay6 b7) (ix2 p q) = v75 (ix2 p q) + b7 (ix1 q) := by
  unfold k0_pay7 k0_pay6
  simp only [addf_apply, bias_rows_entry]

end Cert.KernelIdeal.Rows

end
-- ==== Proof.KernelHeads.lean ====
/-
  The three heads of the kernel's body, read one entry at a time: the density (softplus of raw output 0, in the
  kernel's spelling), the colour (the logistic function of raw outputs 1 to 3, times and minus the two carried
  constants), and the normal (two more layers, a third affine layer, tanh, and the division by the larger of the row's
  Euclidean length and ε).
-/
import proofs.«125031_j78632261256031_1_alg».proof.Proof.KernelProducts

noncomputable section

namespace Cert.KernelIdeal.Rows

open Cert.KernelIdeal Cert.KernelIdeal.Gen Idealize.ShloMosaic Idealize.ShloMosaic.ValueIdx Idealize.ShloMosaic.DenseLayer
open Idealize.ShloMosaic.Keepdims Cert.RowNet

/-! ## The heads -/

/-- The density: softplus of raw output 0. -/
theorem pay8_entry (v75 : FVec Ideal S2048x4 .f32) (v77 : FVec Ideal S1x4 .f32) (p : Fin 2048) (u : Fin 1) :
    k0_pay8 v75 v77 (ix2 p u) = softplus (k0_pay7 v75 v77 (ix2 p (0 : Fin 4))) := by
  have hs : extractStridedSlice S2048x1 ![0, 0] (k0_pay7 v75 v77) slices_S2048x4_o0_0_S2048x1 (ix2 p u)
      = k0_pay7 v75 v77 (ix2 p (0 : Fin 4)) :=
    slice2_axis1_apply 0 (k0_pay7 v75 v77) slices_S2048x4_o0_0_S2048x1 p u 0 (by have := u.isLt; show 0 = 0 + u.val; omega)
  unfold k0_pay8
  show Scalar.select (FloatOps.cmpf .one
        (FloatOps.subf (extractStridedSlice S2048x1 ![0, 0] (k0_pay7 v75 v77) slices_S2048x4_o0_0_S2048x1 (ix2 p u)) (Scalar.ofBits .f32 0x00000000#32))
        (FloatOps.subf (extractStridedSlice S2048x1 ![0, 0] (k0_pay7 v75 v77) slices_S2048x4_o0_0_S2048x1 (ix2 p u)) (Scalar.ofBits .f32 0x00000000#32)))
      (FloatOps.addf (extractStridedSlice S2048x1 ![0, 0] (k0_pay7 v75 v77) slices_S2048x4_o0_0_S2048x1 (ix2 p u)) (Scalar.ofBits .f32 0x00000000#32))
      (FloatOps.addf (FloatOps.maximumf (extractStridedSlice S2048x1 ![0, 0] (k0_pay7 v75 v77) slices_S2048x4_o0_0_S2048x1 (ix2 p u)) (Scalar.ofBits .f32 0x00000000#32))
        (FloatOps.log1p (FloatOps.exp (FloatOps.subf (Scalar.ofBits .f32 0x00000000#32)
          (FloatOps.absf (FloatOps.subf (extractStridedSlice S2048x1 ![0, 0] (k0_pay7 v75 v77) slices_S2048x4_o0_0_S2048x1 (ix2 p u)) (Scalar.ofBits .f32 0x00000000#32)))))))
      = _
  rw [hs, zero_f32]
  exact softplus_kernel _

/-- The colour: the logistic function of raw outputs 1 to 3, scaled and shifted by the two carried constants. -/
theorem pay9_entry (v75 : FVec Ideal S2048x4 .f32) (v77 : FVec Ideal S1x4 .f32) (p : Fin 2048) (j : Fin 3) :
    k0_pay9 v75 v77 (ix2 p j)
      = Ideal.logistic (k0_pay7 v75 v77 (ix2 p (⟨j.val + 1, by have := j.isLt; omega⟩ : Fin 4))) * Ideal.ofBits .f32 0x3F804189#32 - Ideal.ofBits .f32 0x3A83126F#32 := by
  have hs : extractStridedSlice S2048x3 ![0, 1] (k0_pay7 v75 v77) slices_S2048x4_o0_1_S2048x3 (ix2 p j)
      = k0_pay7 v75 v77 (ix2 p (⟨j.val + 1, by have := j.isLt; omega⟩ : Fin 4)) :=
    slice2_axis1_apply 1 (k0_pay7 v75 v77) slices_S2048x4_o0_1_S2048x3 p j ⟨j.val + 1, by have := j.isLt; omega⟩ (by show j.val + 1 = 1 + j.val; omega)
  unfold k0_pay9
  show FloatOps.subf (FloatOps.mulf (FloatOps.logistic (extractStridedSlice S2048x3 ![0, 1] (k0_pay7 v75 v77) slices_S2048x4_o0_1_S2048x3 (ix2 p j)))
      (Scalar.ofBits .f32 0x3F804189#32)) (Scalar.ofBits .f32 0x3A83126F#32) = _
  rw [hs]
  rfl

/-- The first two layers of the normal head. -/
theorem pay10_entry (v71 : FVec Ideal S2048x256 .f32) (nW0 : Vec Ideal S256x64 .f32) (nb0 : Vec Ideal S64 .f32)
    (nW1 : Vec Ideal S64x64 .f32) (nb1 : Vec Ideal S64 .f32) (p : Fin 2048) (q : Fin 64) :
    k0_pay10 v71 nW0 nb0 nW1 nb1 (ix2 p q)
      = layer (k := 64) (m := 64) nW1 nb1 (layer (k := 256) (m := 64) nW0 nb0 (fun i => v71 (ix2 p i))) q := by
  unfold k0_pay10
  simp only [mm_256_64, mm_64_64, truncf_apply, maximumf_apply, addf_apply, broadcast_apply, bias_rows_entry, zero_f32]
  rfl

/-- The normal: tanh of the head's third layer, over the larger of its length and ε. -/
theorem pay1_entry (v121 : FVec Ideal S2048x64 .bf16) (nW2 : Vec Ideal S64x3 .f32) (nb2 : Vec Ideal S3 .f32) (p : Fin 2048) (j : Fin 3) :
    k0_pay1 v121 nW2 nb2 (ix2 p j)
      = unitize (fun k => Ideal.tanh (affine (k := 64) (m := 3) nW2 nb2 (fun i => v121 (ix2 p i)) k)) j := by
  unfold k0_pay1
  dsimp only
  refine (divf_apply _ _ (ix2 p j)).trans ?_
  refine congrArg₂ Ideal.div ?_ ?_
  · simp only [Idealize.ShloMosaic.tanh, addf_apply, mm_64_3, truncf_apply, bias_rows_entry]
    rfl
  · refine (broadcastTo_a1_ab_apply _ _ p j).trans ?_
    refine (maximumf_apply _ _ _).trans ?_
    refine congrArg₂ max ?_ rfl
    refine congrArg Ideal.sqrt ?_
    refine (shapeCast_a_a1_apply _ _ p 0).trans ?_
    refine (rowsum3 _ _ _ p).trans ?_
    refine Finset.sum_congr rfl fun k _ => ?_
    simp only [mulf_apply, Idealize.ShloMosaic.tanh, addf_apply, mm_64_3, truncf_apply, bias_rows_entry]
    rfl

end Cert.KernelIdeal.Rows

end
-- ==== Proof.KernelBlocks.lean ====
/-
  What the kernel's body leaves in its three output buffers, read one entry at a time.

  Each output buffer is written once, whole; what it holds at row p is the specification's density, colour and normal
  of row p of the input block, with the weight blocks as the parameters.
-/
import proofs.«125031_j78632261256031_1_alg».proof.Proof.Gen.KernelIdeal.Frame
import proofs.«125031_j78632261256031_1_alg».proof.Proof.KernelTrunk
import proofs.«125031_j78632261256031_1_alg».proof.Proof.KernelHeads

noncomputable section

namespace Cert.KernelIdeal.Rows

open Cert.KernelIdeal Cert.KernelIdeal.Gen Idealize.ShloMosaic Idealize.ShloMosaic.ValueIdx Idealize.ShloMosaic.DenseLayer
open Idealize.ShloMosaic.Keepdims Cert.RowNet

/-- The all-zero offsets of a whole-buffer access, of rank two and of rank one. -/
theorem hz2 : (![0, 0] : Fin 2 → Nat) = fun _ => 0 := funext fun a => by
  match a with
  | ⟨0, _⟩ => rfl
  | ⟨1, _⟩ => rfl
theorem hz1 : (![0] : Fin 1 → Nat) = fun _ => 0 := funext fun a => by
  match a with
  | ⟨0, _⟩ => rfl

/-- The density buffer at row p: the specification's density of row p of the input block. -/
theorem out23_entry (x0 : Vec Ideal S2048x63 .f32) (x1 : Vec Ideal S63x256 .f32) (x2 : Vec Ideal S256 .f32) (x3 : Vec Ideal S256x256 .f32) (x4 : Vec Ideal S256 .f32) (x5 : Vec Ideal S256x256 .f32) (x6 : Vec Ideal S256 .f32) (x7 : Vec Ideal S256x256 .f32) (x8 : Vec Ideal S256 .f32) (x9 : Vec Ideal S319x256 .f32) (x10 : Vec Ideal S256 .f32) (x11 : Vec Ideal S256x256 .f32) (x12 : Vec Ideal S256 .f32) (x13 : Vec Ideal S256x256 .f32) (x14 : Vec Ideal S256 .f32) (x15 : Vec Ideal S256x4 .f32) (x16 : Vec Ideal S4 .f32) (x17 : Vec Ideal S256x64 .f32) (x18 : Vec Ideal S64 .f32) (x19 : Vec Ideal S64x64 .f32) (x20 : Vec Ideal S64 .f32) (x21 : Vec Ideal S64x3 .f32) (x22 : Vec Ideal S3 .f32) (p : Fin 2048) (u : Fin 1) :
    out0_23 x0 x1 x2 x3 x4 x5 x6 x7 x8 x9 x10 x11 x12 x13 x14 x15 x16 x17 x18 x19 x20 x21 x22 (ix2 p u) = density ⟨x1, x2, x3, x4, x5, x6, x7, x8, x9, x10, x11, x12, x13, x14, x15, x16, x17, x18, x19, x20, x21, x22⟩ (row (a := 2048) (n := 63) x0 p) := by
  unfold out0_23
  rw [View.canon_unit_zero hz2]
  simp only [View.ld_unit_zero (S := S2048x63) hz2, View.ld_unit_zero (S := S63x256) hz2, View.ld_unit_zero (S := S256) hz1, View.ld_unit_zero (S := S256x256) hz2, View.ld_unit_zero (S := S319x256) hz2, View.ld_unit_zero (S := S256x4) hz2, View.ld_unit_zero (S := S4) hz1, View.ld_unit_zero (S := S256x64) hz2, View.ld_unit_zero (S := S64) hz1, View.ld_unit_zero (S := S64x64) hz2, View.ld_unit_zero (S := S64x3) hz2, View.ld_unit_zero (S := S3) hz1]
  rw [pay8_entry, pay7_entry, pay5_entry]
  simp only [pay4_entry, pay2_entry, pay3_entry]
  rfl

/-- The colour buffer at (p, j): the specification's colour j of row p of the input block. -/
theorem out24_entry (x0 : Vec Ideal S2048x63 .f32) (x1 : Vec Ideal S63x256 .f32) (x2 : Vec Ideal S256 .f32) (x3 : Vec Ideal S256x256 .f32) (x4 : Vec Ideal S256 .f32) (x5 : Vec Ideal S256x256 .f32) (x6 : Vec Ideal S256 .f32) (x7 : Vec Ideal S256x256 .f32) (x8 : Vec Ideal S256 .f32) (x9 : Vec Ideal S319x256 .f32) (x10 : Vec Ideal S256 .f32) (x11 : Vec Ideal S256x256 .f32) (x12 : Vec Ideal S256 .f32) (x13 : Vec Ideal S256x256 .f32) (x14 : Vec Ideal S256 .f32) (x15 : Vec Ideal S256x4 .f32) (x16 : Vec Ideal S4 .f32) (x17 : Vec Ideal S256x64 .f32) (x18 : Vec Ideal S64 .f32) (x19 : Vec Ideal S64x64 .f32) (x20 : Vec Ideal S64 .f32) (x21 : Vec Ideal S64x3 .f32) (x22 : Vec Ideal S3 .f32) (p : Fin 2048) (j : Fin 3) :
    out0_24 x0 x1 x2 x3 x4 x5 x6 x7 x8 x9 x10 x11 x12 x13 x14 x15 x16 x17 x18 x19 x20 x21 x22 (ix2 p j) = colour ⟨x1, x2, x3, x4, x5, x6, x7, x8, x9, x10, x11, x12, x13, x14, x15, x16, x17, x18, x19, x20, x21, x22⟩ (row (a := 2048) (n := 63) x0 p) j := by
  unfold out0_24
  rw [View.canon_unit_zero hz2]
  simp only [View.ld_unit_zero (S := S2048x63) hz2, View.ld_unit_zero (S := S63x256) hz2, View.ld_unit_zero (S := S256) hz1, View.ld_unit_zero (S := S256x256) hz2, View.ld_unit_zero (S := S319x256) hz2, View.ld_unit_zero (S := S256x4) hz2, View.ld_unit_zero (S := S4) hz1, View.ld_unit_zero (S := S256x64) hz2, View.ld_unit_zero (S := S64) hz1, View.ld_unit_zero (S := S64x64) hz2, View.ld_unit_zero (S := S64x3) hz2, View.ld_unit_zero (S := S3) hz1]
  rw [pay9_entry, pay7_entry, pay5_entry]
  simp only [pay4_entry, pay2_entry, pay3_entry]
  rfl

/-- The normal buffer at (p, j): component j of the specification's normal of row p of the input block. -/
theorem out25_entry (x0 : Vec Ideal S2048x63 .f32) (x1 : Vec Ideal S63x256 .f32) (x2 : Vec Ideal S256 .f32) (x3 : Vec Ideal S256x256 .f32) (x4 : Vec Ideal S256 .f32) (x5 : Vec Ideal S256x256 .f32) (x6 : Vec Ideal S256 .f32) (x7 : Vec Ideal S256x256 .f32) (x8 : Vec Ideal S256 .f32) (x9 : Vec Ideal S319x256 .f32) (x10 : Vec Ideal S256 .f32) (x11 : Vec Ideal S256x256 .f32) (x12 : Vec Ideal S256 .f32) (x13 : Vec Ideal S256x256 .f32) (x14 : Vec Ideal S256 .f32) (x15 : Vec Ideal S256x4 .f32) (x16 : Vec Ideal S4 .f32) (x17 : Vec Ideal S256x64 .f32) (x18 : Vec Ideal S64 .f32) (x19 : Vec Ideal S64x64 .f32) (x20 : Vec Ideal S64 .f32) (x21 : Vec Ideal S64x3 .f32) (x22 : Vec Ideal S3 .f32) (p : Fin 2048) (j : Fin 3) :
    out0_25 x0 x1 x2 x3 x4 x5 x6 x7 x8 x9 x10 x11 x12 x13 x14 x15 x16 x17 x18 x19 x20 x21 x22 (ix2 p j) = normal ⟨x1, x2, x3, x4, x5, x6, x7, x8, x9, x10, x11, x12, x13, x14, x15, x16, x17, x18, x19, x20, x21, x22⟩ (row (a := 2048) (n := 63) x0 p) j := by
  unfold out0_25
  rw [View.canon_unit_zero hz2]
  simp only [View.ld_unit_zero (S := S2048x63) hz2, View.ld_unit_zero (S := S63x256) hz2, View.ld_unit_zero (S := S256) hz1, View.ld_unit_zero (S := S256x256) hz2, View.ld_unit_zero (S := S319x256) hz2, View.ld_unit_zero (S := S256x4) hz2, View.ld_unit_zero (S := S4) hz1, View.ld_unit_zero (S := S256x64) hz2, View.ld_unit_zero (S := S64) hz1, View.ld_unit_zero (S := S64x64) hz2, View.ld_unit_zero (S := S64x3) hz2, View.ld_unit_zero (S := S3) hz1]
  rw [pay1_entry]
  simp only [pay10_entry, pay4_entry, pay2_entry, pay3_entry]
  rfl

end Cert.KernelIdeal.Rows

end
-- ==== Proof.KernelArrays.lean ====
/-
  From the body at a grid point to the three result arrays.

  The grid has 128 points; point t stages rows 2048·t … 2048·t + 2047 of the input array and the whole of every weight
  array, and writes back rows 2048·t … of each result array. So what point t writes back is the specification's
  whole-array function read through point t's block, the 128 blocks tile each result array, and after the run each
  result array is that function of the argument arrays.
-/
import proofs.«125031_j78632261256031_1_alg».proof.Proof.KernelIdealValue
import proofs.«125031_j78632261256031_1_alg».proof.Proof.KernelBlocks

noncomputable section

namespace Cert.KernelIdeal.Arrays

open Cert.KernelIdeal Cert.KernelIdeal.Gen Cert.KernelIdeal.Value Cert.KernelIdeal.Rows
open Idealize.ShloMosaic Idealize.ShloMosaic.TcCoe Idealize.ShloMosaic.ValueIdx Idealize.SL.Sem Cert.RowNet
open Idealize.ShloMosaic.Pipeline (Dat)

variable (m : (ℓ : Loc nD τ sig) → Buf (Elt Ideal) ℓ) (ρ : Dev nD → PrngReg)

/-- The weights and biases as core `c` finds them when the region is entered. -/
abbrev params (c : Dev nD) : Params :=
  ⟨V m c main_arg1, V m c main_arg2, V m c main_arg3, V m c main_arg4, V m c main_arg5, V m c main_arg6, V m c main_arg7, V m c main_arg8, V m c main_arg9, V m c main_arg10, V m c main_arg11, V m c main_arg12, V m c main_arg13, V m c main_arg14, V m c main_arg15, V m c main_arg16, V m c main_arg17, V m c main_arg18, V m c main_arg19, V m c main_arg20, V m c main_arg21, V m c main_arg22⟩

/-! ## The index maps, decided over the grid -/

/-- The input rows and the three results move together, block t at point t, and none of them moves along the columns. -/
theorem idx_rows : ∀ t : Fin cfg0.N, win0_0.index t (0 : Fin 2) = t.val ∧ win0_0.index t (1 : Fin 2) = 0
    ∧ win0_23.index t (0 : Fin 2) = t.val ∧ win0_23.index t (1 : Fin 2) = 0
    ∧ win0_24.index t (0 : Fin 2) = t.val ∧ win0_24.index t (1 : Fin 2) = 0
    ∧ win0_25.index t (0 : Fin 2) = t.val ∧ win0_25.index t (1 : Fin 2) = 0 :=
  (by decide +kernel : ∀ t : Fin grid0.N, _)

theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 1) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 1) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 1) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 1) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 1) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 1) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 1) = 0 :=
  (by decide +kernel : ∀ t : Fin grid0.N, _)
theorem idx_w15 : ∀ t : Fin cfg0.N, win0_15.index t (0 : Fin 2) = 0 ∧ win0_15.index t (1 : Fin 2) = 0 :=
  (by decide +kernel : ∀ t : Fin grid0.N, _)
theorem idx_w16 : ∀ t : Fin cfg0.N, win0_16.index t (0 : Fin 1) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 1) = 0 :=
  (by decide +kernel : ∀ t : Fin grid0.N, _)
theorem idx_w19 : ∀ t : Fin cfg0.N, win0_19.index t (0 : Fin 2) = 0 ∧ win0_19.index t (1 : Fin 2) = 0 :=
  (by decide +kernel : ∀ t : Fin grid0.N, _)
theorem idx_w20 : ∀ t : Fin cfg0.N, win0_20.index t (0 : Fin 1) = 0 :=
  (by decide +kernel : ∀ t : Fin grid0.N, _)
theorem idx_w21 : ∀ t : Fin cfg0.N, win0_21.index t (0 : Fin 2) = 0 ∧ win0_21.index t (1 : Fin 2) = 0 :=
  (by decide +kernel : ∀ t : Fin grid0.N, _)
theorem idx_w22 : ∀ t : Fin cfg0.N, win0_22.index t (0 : Fin 1) = 0 :=
  (by decide +kernel : ∀ t : Fin grid0.N, _)

/-! ## A weight window's block at any point is the whole array -/

theorem wblk1 (c : Dev nD) (t : Fin cfg0.N) : (iblk m c 1 t : Vec Ideal S63x256 .f32) = V m c main_arg1 := by
  funext y
  show V m c main_arg1 (((cfg0.win 1).blk t).view.emb y) = V m c main_arg1 y
  refine congrArg (V m c main_arg1) (funext fun a => Fin.ext ?_)
  obtain ⟨e0, e1⟩ := idx_w1 t
  match a with
  | ⟨0, _⟩ => show win0_1.index t (0 : Fin 2) * 63 + 1 * (y 0).val = (y 0).val; omega
  | ⟨1, _⟩ => show win0_1.index t (1 : Fin 2) * 256 + 1 * (y 1).val = (y 1).val; omega
theorem wblk2 (c : Dev nD) (t : Fin cfg0.N) : (iblk m c 2 t : Vec Ideal S256 .f32) = V m c main_arg2 := by
  funext y
  show V m c main_arg2 (((cfg0.win 2).blk t).view.emb y) = V m c main_arg2 y
  refine congrArg (V m c main_arg2) (funext fun a => Fin.ext ?_)
  have e0 := idx_w2 t
  match a with
  | ⟨0, _⟩ => show win0_2.index t (0 : Fin 1) * 256 + 1 * (y 0).val = (y 0).val; omega
theorem wblk3 (c : Dev nD) (t : Fin cfg0.N) : (iblk m c 3 t : Vec Ideal S256x256 .f32) = V m c main_arg3 := by
  funext y
  show V m c main_arg3 (((cfg0.win 3).blk t).view.emb y) = V m c main_arg3 y
  refine congrArg (V m c main_arg3) (funext fun a => Fin.ext ?_)
  obtain ⟨e0, e1⟩ := idx_w3 t
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem wblk4 (c : Dev nD) (t : Fin cfg0.N) : (iblk m c 4 t : Vec Ideal S256 .f32) = V m c main_arg4 := by
  funext y
  show V m c main_arg4 (((cfg0.win 4).blk t).view.emb y) = V m c main_arg4 y
  refine congrArg (V m c main_arg4) (funext fun a => Fin.ext ?_)
  have e0 := idx_w4 t
  match a with
  | ⟨0, _⟩ => show win0_4.index t (0 : Fin 1) * 256 + 1 * (y 0).val = (y 0).val; omega
theorem wblk5 (c : Dev nD) (t : Fin cfg0.N) : (iblk m c 5 t : Vec Ideal S256x256 .f32) = V m c main_arg5 := by
  funext y
  show V m c main_arg5 (((cfg0.win 5).blk t).view.emb y) = V m c main_arg5 y
  refine congrArg (V m c main_arg5) (funext fun a => Fin.ext ?_)
  obtain ⟨e0, e1⟩ := idx_w5 t
  match a with
  | ⟨0, _⟩ => show win0_5.index t (0 : Fin 2) * 256 + 1 * (y 0).val = (y 0).val; omega
  | ⟨1, _⟩ => show win0_5.index t (1 : Fin 2) * 256 + 1 * (y 1).val = (y 1).val; omega
theorem wblk6 (c : Dev nD) (t : Fin cfg0.N) : (iblk m c 6 t : Vec Ideal S256 .f32) = V m c main_arg6 := by
  funext y
  show V m c main_arg6 (((cfg0.win 6).blk t).view.emb y) = V m c main_arg6 y
  refine congrArg (V m c main_arg6) (funext fun a => Fin.ext ?_)
  have e0 := idx_w6 t
  match a with
  | ⟨0, _⟩ => show win0_6.index t (0 : Fin 1) * 256 + 1 * (y 0).val = (y 0).val; omega
theorem wblk7 (c : Dev nD) (t : Fin cfg0.N) : (iblk m c 7 t : Vec Ideal S256x256 .f32) = V m c main_arg7 := by
  funext y
  show V m c main_arg7 (((cfg0.win 7).blk t).view.emb y) = V m c main_arg7 y
  refine congrArg (V m c main_arg7) (funext fun a => Fin.ext ?_)
  obtain ⟨e0, e1⟩ := idx_w7 t
  match a with
  | ⟨0, _⟩ => show win0_7.index t (0 : Fin 2) * 256 + 1 * (y 0).val = (y 0).val; omega
  | ⟨1, _⟩ => show win0_7.index t (1 : Fin 2) * 256 + 1 * (y 1).val = (y 1).val; omega
theorem wblk8 (c : Dev nD) (t : Fin cfg0.N) : (iblk m c 8 t : Vec Ideal S256 .f32) = V m c main_arg8 := by
  funext y
  show V m c main_arg8 (((cfg0.win 8).blk t).view.emb y) = V m c main_arg8 y
  refine congrArg (V m c main_arg8) (funext fun a => Fin.ext ?_)
  have e0 := idx_w8 t
  match a with
  | ⟨0, _⟩ => show win0_8.index t (0 : Fin 1) * 256 + 1 * (y 0).val = (y 0).val; omega
theorem wblk9 (c : Dev nD) (t : Fin cfg0.N) : (iblk m c 9 t : Vec Ideal S319x256 .f32) = V m c main_arg9 := by
  funext y
  show V m c main_arg9 (((cfg0.win 9).blk t).view.emb y) = V m c main_arg9 y
  refine congrArg (V m c main_arg9) (funext fun a => Fin.ext ?_)
  obtain ⟨e0, e1⟩ := idx_w9 t
  match a with
  | ⟨0, _⟩ => show win0_9.index t (0 : Fin 2) * 319 + 1 * (y 0).val = (y 0).val; omega
  | ⟨1, _⟩ => show win0_9.index t (1 : Fin 2) * 256 + 1 * (y 1).val = (y 1).val; omega
theorem wblk10 (c : Dev nD) (t : Fin cfg0.N) : (iblk m c 10 t : Vec Ideal S256 .f32) = V m c main_arg10 := by
  funext y
  show V m c main_arg10 (((cfg0.win 10).blk t).view.emb y) = V m c main_arg10 y
  refine congrArg (V m c main_arg10) (funext fun a => Fin.ext ?_)
  have e0 := idx_w10 t
  match a with
  | ⟨0, _⟩ => show win0_10.index t (0 : Fin 1) * 256 + 1 * (y 0).val = (y 0).val; omega
theorem wblk11 (c : Dev nD) (t : Fin cfg0.N) : (iblk m c 11 t : Vec Ideal S256x256 .f32) = V m c main_arg11 := by
  funext y
  show V m c main_arg11 (((cfg0.win 11).blk t).view.emb y) = V m c main_arg11 y
  refine congrArg (V m c main_arg11) (funext fun a => Fin.ext ?_)
  obtain ⟨e0, e1⟩ := idx_w11 t
  match a with
  | ⟨0, _⟩ => show win0_11.index t (0 : Fin 2) * 256 + 1 * (y 0).val = (y 0).val; omega
  | ⟨1, _⟩ => show win0_11.index t (1 : Fin 2) * 256 + 1 * (y 1).val = (y 1).val; omega
theorem wblk12 (c : Dev nD) (t : Fin cfg0.N) : (iblk m c 12 t : Vec Ideal S256 .f32) = V m c main_arg12 := by
  funext y
  show V m c main_arg12 (((cfg0.win 12).blk t).view.emb y) = V m c main_arg12 y
  refine congrArg (V m c main_arg12) (funext fun a => Fin.ext ?_)
  have e0 := idx_w12 t
  match a with
  | ⟨0, _⟩ => show win0_12.index t (0 : Fin 1) * 256 + 1 * (y 0).val = (y 0).val; omega
theorem wblk13 (c : Dev nD) (t : Fin cfg0.N) : (iblk m c 13 t : Vec Ideal S256x256 .f32) = V m c main_arg13 := by
  funext y
  show V m c main_arg13 (((cfg0.win 13).blk t).view.emb y) = V m c main_arg13 y
  refine congrArg (V m c main_arg13) (funext fun a => Fin.ext ?_)
  obtain ⟨e0, e1⟩ := idx_w13 t
  match a with
  | ⟨0, _⟩ => show win0_13.index t (0 : Fin 2) * 256 + 1 * (y 0).val = (y 0).val; omega
  | ⟨1, _⟩ => show win0_13.index t (1 : Fin 2) * 256 + 1 * (y 1).val = (y 1).val; omega
theorem wblk14 (c : Dev nD) (t : Fin cfg0.N) : (iblk m c 14 t : Vec Ideal S256 .f32) = V m c main_arg14 := by
  funext y
  show V m c main_arg14 (((cfg0.win 14).blk t).view.emb y) = V m c main_arg14 y
  refine congrArg (V m c main_arg14) (funext fun a => Fin.ext ?_)
  have e0 := idx_w14 t
  match a with
  | ⟨0, _⟩ => show win0_14.index t (0 : Fin 1) * 256 + 1 * (y 0).val = (y 0).val; omega
theorem wblk15 (c : Dev nD) (t : Fin cfg0.N) : (iblk m c 15 t : Vec Ideal S256x4 .f32) = V m c main_arg15 := by
  funext y
  show V m c main_arg15 (((cfg0.win 15).blk t).view.emb y) = V m c main_arg15 y
  refine congrArg (V m c main_arg15) (funext fun a => Fin.ext ?_)
  obtain ⟨e0, e1⟩ := idx_w15 t
  match a with
  | ⟨0, _⟩ => show win0_15.index t (0 : Fin 2) * 256 + 1 * (y 0).val = (y 0).val; omega
  | ⟨1, _⟩ => show win0_15.index t (1 : Fin 2) * 4 + 1 * (y 1).val = (y 1).val; omega
theorem wblk16 (c : Dev nD) (t : Fin cfg0.N) : (iblk m c 16 t : Vec Ideal S4 .f32) = V m c main_arg16 := by
  funext y
  show V m c main_arg16 (((cfg0.win 16).blk t).view.emb y) = V m c main_arg16 y
  refine congrArg (V m c main_arg16) (funext fun a => Fin.ext ?_)
  have e0 := idx_w16 t
  match a with
  | ⟨0, _⟩ => show win0_16.index t (0 : Fin 1) * 4 + 1 * (y 0).val = (y 0).val; omega
theorem wblk17 (c : Dev nD) (t : Fin cfg0.N) : (iblk m c 17 t : Vec Ideal S256x64 .f32) = V m c main_arg17 := by
  funext y
  show V m c main_arg17 (((cfg0.win 17).blk t).view.emb y) = V m c main_arg17 y
  refine congrArg (V m c main_arg17) (funext fun a => Fin.ext ?_)
  obtain ⟨e0, e1⟩ := idx_w17 t
  match a with
  | ⟨0, _⟩ => show win0_17.index t (0 : Fin 2) * 256 + 1 * (y 0).val = (y 0).val; omega
  | ⟨1, _⟩ => show win0_17.index t (1 : Fin 2) * 64 + 1 * (y 1).val = (y 1).val; omega
theorem wblk18 (c : Dev nD) (t : Fin cfg0.N) : (iblk m c 18 t : Vec Ideal S64 .f32) = V m c main_arg18 := by
  funext y
  show V m c main_arg18 (((cfg0.win 18).blk t).view.emb y) = V m c main_arg18 y
  refine congrArg (V m c main_arg18) (funext fun a => Fin.ext ?_)
  have e0 := idx_w18 t
  match a with
  | ⟨0, _⟩ => show win0_18.index t (0 : Fin 1) * 64 + 1 * (y 0).val = (y 0).val; omega
theorem wblk19 (c : Dev nD) (t : Fin cfg0.N) : (iblk m c 19 t : Vec Ideal S64x64 .f32) = V m c main_arg19 := by
  funext y
  show V m c main_arg19 (((cfg0.win 19).blk t).view.emb y) = V m c main_arg19 y
  refine congrArg (V m c main_arg19) (funext fun a => Fin.ext ?_)
  obtain ⟨e0, e1⟩ := idx_w19 t
  match a with
  | ⟨0, _⟩ => show win0_19.index t (0 : Fin 2) * 64 + 1 * (y 0).val = (y 0).val; omega
  | ⟨1, _⟩ => show win0_19.index t (1 : Fin 2) * 64 + 1 * (y 1).val = (y 1).val; omega
theorem wblk20 (c : Dev nD) (t : Fin cfg0.N) : (iblk m c 20 t : Vec Ideal S64 .f32) = V m c main_arg20 := by
  funext y
  show V m c main_arg20 (((cfg0.win 20).blk t).view.emb y) = V m c main_arg20 y
  refine congrArg (V m c main_arg20) (funext fun a => Fin.ext ?_)
  have e0 := idx_w20 t
  match a with
  | ⟨0, _⟩ => show win0_20.index t (0 : Fin 1) * 64 + 1 * (y 0).val = (y 0).val; omega
theorem wblk21 (c : Dev nD) (t : Fin cfg0.N) : (iblk m c 21 t : Vec Ideal S64x3 .f32) = V m c main_arg21 := by
  funext y
  show V m c main_arg21 (((cfg0.win 21).blk t).view.emb y) = V m c main_arg21 y
  refine congrArg (V m c main_arg21) (funext fun a => Fin.ext ?_)
  obtain ⟨e0, e1⟩ := idx_w21 t
  match a with
  | ⟨0, _⟩ => show win0_21.index t (0 : Fin 2) * 64 + 1 * (y 0).val = (y 0).val; omega
  | ⟨1, _⟩ => show win0_21.index t (1 : Fin 2) * 3 + 1 * (y 1).val = (y 1).val; omega
theorem wblk22 (c : Dev nD) (t : Fin cfg0.N) : (iblk m c 22 t : Vec Ideal S3 .f32) = V m c main_arg22 := by
  funext y
  show V m c main_arg22 (((cfg0.win 22).blk t).view.emb y) = V m c main_arg22 y
  refine congrArg (V m c main_arg22) (funext fun a => Fin.ext ?_)
  have e0 := idx_w22 t
  match a with
  | ⟨0, _⟩ => show win0_22.index t (0 : Fin 1) * 3 + 1 * (y 0).val = (y 0).val; omega

/-- What point `t` writes back to result 0 is block `t` of `Gdensity` of the argument arrays. -/
theorem flushed23_eq (c : Dev nD) (t : Fin cfg0.N) :
    (dats m 0 c).flushed 23 t = ((cfg0.win 23).blk t).view.read (Elt Ideal) (Gdensity (params m c) (V m c main_arg0)) := by
  rw [Value.flushed23]
  funext y
  obtain ⟨p, u, rfl⟩ : ∃ (p : Fin 2048) (u : Fin 1), y = ix2 p u := ⟨y 0, y 1, eq_ix2 y⟩
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 p u)
      = Gdensity (params m c) (V m c main_arg0) (((cfg0.win 23).blk t).view.emb (ix2 p u))
  refine (out23_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p u).trans ?_
  obtain ⟨e0, e1, e2, e3, e4, e5, e6, e7⟩ := idx_rows t
  have hx : row (a := 2048) (n := 63) (iblk m c 0 t) p
      = row (a := 262144) (n := 63) (V m c main_arg0) ((((cfg0.win 23).blk t).view.emb (ix2 p u)) 0) := by
    funext i
    show V m c main_arg0 (((cfg0.win 0).blk t).view.emb (ix2 p i)) = V m c main_arg0 (ix2 ((((cfg0.win 23).blk t).view.emb (ix2 p u)) 0) i)
    refine congrArg (V m c main_arg0) (funext fun a => Fin.ext ?_)
    match a with
    | ⟨0, _⟩ => show win0_0.index t (0 : Fin 2) * 2048 + 1 * p.val = win0_23.index t (0 : Fin 2) * 2048 + 1 * p.val; omega
    | ⟨1, _⟩ => show win0_0.index t (1 : Fin 2) * 63 + 1 * i.val = i.val; omega
  rw [hx, wblk1 m c t, wblk2 m c t, wblk3 m c t, wblk4 m c t, wblk5 m c t, wblk6 m c t, wblk7 m c t, wblk8 m c t, wblk9 m c t, wblk10 m c t, wblk11 m c t, wblk12 m c t, wblk13 m c t, wblk14 m c t, wblk15 m c t, wblk16 m c t, wblk17 m c t, wblk18 m c t, wblk19 m c t, wblk20 m c t, wblk21 m c t, wblk22 m c t]
  rfl

/-- The 128 blocks tile result 0: row `r` is in the block of point `r / 2048`. -/
theorem cover23 (i : S262144x1.Idx) :
    ∃ t : Fin cfg0.N, (cfg0.win 23).flush t = true ∧ i ∈ ((cfg0.win 23).blk t).view.set := by
  have hi0 : (i 0).val < 262144 := (i 0).isLt
  have hi1 : (i 1).val < 1 := (i 1).isLt
  obtain ⟨t, ht⟩ : ∃ t : Fin cfg0.N, t.val = (i 0).val / 2048 := ⟨⟨(i 0).val / 2048, by show (i 0).val / 2048 < 128; omega⟩, rfl⟩
  refine ⟨t, flush0_23 t, ?_⟩
  obtain ⟨e0, e1, e2, e3, e4, e5, e6, e7⟩ := idx_rows t
  show i ∈ ((View.whole main_v0_0).slice (win0_23.rect t)).set
  rw [View.set_slice_whole, Rect.mem_set_unit]
  intro a
  match a with
  | ⟨0, _⟩ =>
    show win0_23.index t (0 : Fin 2) * 2048 ≤ (i 0).val ∧ (i 0).val < win0_23.index t (0 : Fin 2) * 2048 + 2048
    omega
  | ⟨1, _⟩ =>
    show win0_23.index t (1 : Fin 2) * 1 ≤ (i 1).val ∧ (i 1).val < win0_23.index t (1 : Fin 2) * 1 + 1
    omega

/-- Result 0 after the run. -/
theorem final23 (c : Dev nD) : (dats m 0 c).arrAt 23 cfg0.N = Gdensity (params m c) (V m c main_arg0) :=
  (dats m 0 c).arrAt_eq_of_cover 23 (Gdensity (params m c) (V m c main_arg0)) (fun t _ => flushed23_eq m c t) (cover23)

/-- What point `t` writes back to result 1 is block `t` of `Gcolour` of the argument arrays. -/
theorem flushed24_eq (c : Dev nD) (t : Fin cfg0.N) :
    (dats m 0 c).flushed 24 t = ((cfg0.win 24).blk t).view.read (Elt Ideal) (Gcolour (params m c) (V m c main_arg0)) := by
  rw [Value.flushed24]
  funext y
  obtain ⟨p, j, rfl⟩ : ∃ (p : Fin 2048) (j : Fin 3), y = ix2 p j := ⟨y 0, y 1, eq_ix2 y⟩
  show out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 p j)
      = Gcolour (params m c) (V m c main_arg0) (((cfg0.win 24).blk t).view.emb (ix2 p j))
  refine (out24_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p j).trans ?_
  obtain ⟨e0, e1, e2, e3, e4, e5, e6, e7⟩ := idx_rows t
  have hx : row (a := 2048) (n := 63) (iblk m c 0 t) p
      = row (a := 262144) (n := 63) (V m c main_arg0) ((((cfg0.win 24).blk t).view.emb (ix2 p j)) 0) := by
    funext i
    show V m c main_arg0 (((cfg0.win 0).blk t).view.emb (ix2 p i)) = V m c main_arg0 (ix2 ((((cfg0.win 24).blk t).view.emb (ix2 p j)) 0) i)
    refine congrArg (V m c main_arg0) (funext fun a => Fin.ext ?_)
    match a with
    | ⟨0, _⟩ => show win0_0.index t (0 : Fin 2) * 2048 + 1 * p.val = win0_24.index t (0 : Fin 2) * 2048 + 1 * p.val; omega
    | ⟨1, _⟩ => show win0_0.index t (1 : Fin 2) * 63 + 1 * i.val = i.val; omega
  have hj : (((cfg0.win 24).blk t).view.emb (ix2 p j)) 1 = j :=
    Fin.ext (by show win0_24.index t (1 : Fin 2) * 3 + 1 * j.val = j.val; omega)
  rw [hx, wblk1 m c t, wblk2 m c t, wblk3 m c t, wblk4 m c t, wblk5 m c t, wblk6 m c t, wblk7 m c t, wblk8 m c t, wblk9 m c t, wblk10 m c t, wblk11 m c t, wblk12 m c t, wblk13 m c t, wblk14 m c t, wblk15 m c t, wblk16 m c t, wblk17 m c t, wblk18 m c t, wblk19 m c t, wblk20 m c t, wblk21 m c t, wblk22 m c t]
  show _ = colour (params m c) _ ((((cfg0.win 24).blk t).view.emb (ix2 p j)) 1)
  rw [hj]

/-- The 128 blocks tile result 1: row `r` is in the block of point `r / 2048`. -/
theorem cover24 (i : S262144x3.Idx) :
    ∃ t : Fin cfg0.N, (cfg0.win 24).flush t = true ∧ i ∈ ((cfg0.win 24).blk t).view.set := by
  have hi0 : (i 0).val < 262144 := (i 0).isLt
  have hi1 : (i 1).val < 3 := (i 1).isLt
  obtain ⟨t, ht⟩ : ∃ t : Fin cfg0.N, t.val = (i 0).val / 2048 := ⟨⟨(i 0).val / 2048, by show (i 0).val / 2048 < 128; omega⟩, rfl⟩
  refine ⟨t, flush0_24 t, ?_⟩
  obtain ⟨e0, e1, e2, e3, e4, e5, e6, e7⟩ := idx_rows t
  show i ∈ ((View.whole main_v0_1).slice (win0_24.rect t)).set
  rw [View.set_slice_whole, Rect.mem_set_unit]
  intro a
  match a with
  | ⟨0, _⟩ =>
    show win0_24.index t (0 : Fin 2) * 2048 ≤ (i 0).val ∧ (i 0).val < win0_24.index t (0 : Fin 2) * 2048 + 2048
    omega
  | ⟨1, _⟩ =>
    show win0_24.index t (1 : Fin 2) * 3 ≤ (i 1).val ∧ (i 1).val < win0_24.index t (1 : Fin 2) * 3 + 3
    omega

/-- Result 1 after the run. -/
theorem final24 (c : Dev nD) : (dats m 0 c).arrAt 24 cfg0.N = Gcolour (params m c) (V m c main_arg0) :=
  (dats m 0 c).arrAt_eq_of_cover 24 (Gcolour (params m c) (V m c main_arg0)) (fun t _ => flushed24_eq m c t) (cover24)

/-- What point `t` writes back to result 2 is block `t` of `Gnormal` of the argument arrays. -/
theorem flushed25_eq (c : Dev nD) (t : Fin cfg0.N) :
    (dats m 0 c).flushed 25 t = ((cfg0.win 25).blk t).view.read (Elt Ideal) (Gnormal (params m c) (V m c main_arg0)) := by
  rw [Value.flushed25]
  funext y
  obtain ⟨p, j, rfl⟩ : ∃ (p : Fin 2048) (j : Fin 3), y = ix2 p j := ⟨y 0, y 1, eq_ix2 y⟩
  show out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 p j)
      = Gnormal (params m c) (V m c main_arg0) (((cfg0.win 25).blk t).view.emb (ix2 p j))
  refine (out25_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p j).trans ?_
  obtain ⟨e0, e1, e2, e3, e4, e5, e6, e7⟩ := idx_rows t
  have hx : row (a := 2048) (n := 63) (iblk m c 0 t) p
      = row (a := 262144) (n := 63) (V m c main_arg0) ((((cfg0.win 25).blk t).view.emb (ix2 p j)) 0) := by
    funext i
    show V m c main_arg0 (((cfg0.win 0).blk t).view.emb (ix2 p i)) = V m c main_arg0 (ix2 ((((cfg0.win 25).blk t).view.emb (ix2 p j)) 0) i)
    refine congrArg (V m c main_arg0) (funext fun a => Fin.ext ?_)
    match a with
    | ⟨0, _⟩ => show win0_0.index t (0 : Fin 2) * 2048 + 1 * p.val = win0_25.index t (0 : Fin 2) * 2048 + 1 * p.val; omega
    | ⟨1, _⟩ => show win0_0.index t (1 : Fin 2) * 63 + 1 * i.val = i.val; omega
  have hj : (((cfg0.win 25).blk t).view.emb (ix2 p j)) 1 = j :=
    Fin.ext (by show win0_25.index t (1 : Fin 2) * 3 + 1 * j.val = j.val; omega)
  rw [hx, wblk1 m c t, wblk2 m c t, wblk3 m c t, wblk4 m c t, wblk5 m c t, wblk6 m c t, wblk7 m c t, wblk8 m c t, wblk9 m c t, wblk10 m c t, wblk11 m c t, wblk12 m c t, wblk13 m c t, wblk14 m c t, wblk15 m c t, wblk16 m c t, wblk17 m c t, wblk18 m c t, wblk19 m c t, wblk20 m c t, wblk21 m c t, wblk22 m c t]
  show _ = normal (params m c) _ ((((cfg0.win 25).blk t).view.emb (ix2 p j)) 1)
  rw [hj]

/-- The 128 blocks tile result 2: row `r` is in the block of point `r / 2048`. -/
theorem cover25 (i : S262144x3.Idx) :
    ∃ t : Fin cfg0.N, (cfg0.win 25).flush t = true ∧ i ∈ ((cfg0.win 25).blk t).view.set := by
  have hi0 : (i 0).val < 262144 := (i 0).isLt
  have hi1 : (i 1).val < 3 := (i 1).isLt
  obtain ⟨t, ht⟩ : ∃ t : Fin cfg0.N, t.val = (i 0).val / 2048 := ⟨⟨(i 0).val / 2048, by show (i 0).val / 2048 < 128; omega⟩, rfl⟩
  refine ⟨t, flush0_25 t, ?_⟩
  obtain ⟨e0, e1, e2, e3, e4, e5, e6, e7⟩ := idx_rows t
  show i ∈ ((View.whole main_v0_2).slice (win0_25.rect t)).set
  rw [View.set_slice_whole, Rect.mem_set_unit]
  intro a
  match a with
  | ⟨0, _⟩ =>
    show win0_25.index t (0 : Fin 2) * 2048 ≤ (i 0).val ∧ (i 0).val < win0_25.index t (0 : Fin 2) * 2048 + 2048
    omega
  | ⟨1, _⟩ =>
    show win0_25.index t (1 : Fin 2) * 3 ≤ (i 1).val ∧ (i 1).val < win0_25.index t (1 : Fin 2) * 3 + 3
    omega

/-- Result 2 after the run. -/
theorem final25 (c : Dev nD) : (dats m 0 c).arrAt 25 cfg0.N = Gnormal (params m c) (V m c main_arg0) :=
  (dats m 0 c).arrAt_eq_of_cover 25 (Gnormal (params m c) (V m c main_arg0)) (fun t _ => flushed25_eq m c t) (cover25)

/-! ## The run, read -/

/-- Every weakly fair run of the idealized kernel ends with the three result arrays at the specification's functions of
    the argument arrays, and the arguments as they were. -/
theorem run : θ_run defs (onTc (τ := τ) (main (F := Ideal))) ⟨m, fun _ => 0, ρ⟩ fun r => ∀ c : Dev nD,
      r.2.mem ((c : Thread nD τ).loc main_v0_0) = Gdensity ⟨m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22)⟩ (m ((c : Thread nD τ).loc main_arg0))
      ∧ r.2.mem ((c : Thread nD τ).loc main_v0_1) = Gcolour ⟨m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22)⟩ (m ((c : Thread nD τ).loc main_arg0))
      ∧ r.2.mem ((c : Thread nD τ).loc main_v0_2) = Gnormal ⟨m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22)⟩ (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final23 m c), (h c).2.1.trans (final24 m c), (h c).2.2.1.trans (final25 m c), (h c).2.2.2⟩)
    (run_blocks m ρ)

end Cert.KernelIdeal.Arrays

end
-- ==== Proof.RefRows.lean ====
/-
  The reference program, read one row at a time.

  The reference applies the network to the whole array at once: each dense layer is a matrix product over all 262144
  rows, a bias laid over the rows, and a maximum with the zero array. Read at an entry (r, q), a product is the sum over
  the contracted index of row r of the left operand times column q of the weights, the bias is its q-th entry, and the
  maximum is taken entrywise: so the entry (r, q) of a layer's result is that layer applied to row r of its operand, at
  q. Going down the program stage by stage, every intermediate array is, at (r, ·), the corresponding row function of
  row r of the input, and the three results are the three whole-array functions of the specification.

  The only places where the program's spelling differs from the specification's are: the joined array (the input in
  front of the fourth layer's result), read by cases on the column; softplus, spelt with a test for a not-a-number that
  never holds on the extended reals; the word 1.0 in the logistic; and the sum of three squares, which starts from 0.
-/
import proofs.«125031_j78632261256031_1_alg».proof.Proof.Gen.ReferenceIdeal.Read
import proofs.«125031_j78632261256031_1_alg».proof.Proof.RowNet
import proofs.«125031_j78632261256031_1_alg».proof.Proof.LibDenseLayer

noncomputable section

namespace Cert.ReferenceIdeal.Rows

open Cert.ReferenceIdeal Cert.ReferenceIdeal.Read Idealize.ShloMosaic Idealize.ShloMosaic.ValueIdx Cert.RowNet

variable (x0 : (⟨S262144x63, .f32⟩ : BufTy).Contents (Elt Ideal)) (x1 : (⟨S63x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal)) (x9 : (⟨S319x256, .f32⟩ : BufTy).Contents (Elt Ideal))
  (x10 : (⟨S256, .f32⟩ : BufTy).Contents (Elt Ideal)) (x11 : (⟨S256x256, .f32⟩ : BufTy).Contents (Elt Ideal))
  (x12 : (⟨S256, .f32⟩ : BufTy).Contents (Elt Ideal)) (x13 : (⟨S256x256, .f32⟩ : BufTy).Contents (Elt Ideal))
  (x14 : (⟨S256, .f32⟩ : BufTy).Contents (Elt Ideal)) (x15 : (⟨S256x4, .f32⟩ : BufTy).Contents (Elt Ideal))
  (x16 : (⟨S4, .f32⟩ : BufTy).Contents (Elt Ideal)) (x17 : (⟨S256x64, .f32⟩ : BufTy).Contents (Elt Ideal))
  (x18 : (⟨S64, .f32⟩ : BufTy).Contents (Elt Ideal)) (x19 : (⟨S64x64, .f32⟩ : BufTy).Contents (Elt Ideal))
  (x20 : (⟨S64, .f32⟩ : BufTy).Contents (Elt Ideal)) (x21 : (⟨S64x3, .f32⟩ : BufTy).Contents (Elt Ideal))
  (x22 : (⟨S3, .f32⟩ : BufTy).Contents (Elt Ideal))

/-! ## The trunk's row functions, named by how many layers they have gone through -/

def h1 (r : Fin 262144) : Fin 256 → EReal := layer (k := 63) (m := 256) x1 x2 (row (a := 262144) (n := 63) x0 r)
def h2 (r : Fin 262144) : Fin 256 → EReal := layer (k := 256) (m := 256) x3 x4 (h1 x0 x1 x2 r)
def h3 (r : Fin 262144) : Fin 256 → EReal := layer (k := 256) (m := 256) x5 x6 (h2 x0 x1 x2 x3 x4 r)
def h4 (r : Fin 262144) : Fin 256 → EReal := layer (k := 256) (m := 256) x7 x8 (h3 x0 x1 x2 x3 x4 x5 x6 r)
/-- The input row in front of the fourth layer's row. -/
def s4 (r : Fin 262144) : Fin 319 → EReal := skip (row (a := 262144) (n := 63) x0 r) (h4 x0 x1 x2 x3 x4 x5 x6 x7 x8 r)
def h5 (r : Fin 262144) : Fin 256 → EReal := layer (k := 319) (m := 256) x9 x10 (s4 x0 x1 x2 x3 x4 x5 x6 x7 x8 r)
def h6 (r : Fin 262144) : Fin 256 → EReal := layer (k := 256) (m := 256) x11 x12 (h5 x0 x1 x2 x3 x4 x5 x6 x7 x8 x9 x10 r)
/-- The embedding of row `r`. -/
def h7 (r : Fin 262144) : Fin 256 → EReal :=
  layer (k := 256) (m := 256) x13 x14 (h6 x0 x1 x2 x3 x4 x5 x6 x7 x8 x9 x10 x11 x12 r)
/-- The four raw outputs of row `r`. -/
def raw4 (r : Fin 262144) : Fin 4 → EReal :=
  affine (k := 256) (m := 4) x15 x16 (h7 x0 x1 x2 x3 x4 x5 x6 x7 x8 x9 x10 x11 x12 x13 x14 r)

/-! ## The trunk, stage by stage -/

theorem v4_row (r : Fin 262144) (q : Fin 256) : val_main_v4 (F := Ideal) x0 x1 x2 (ix2 r q) = h1 x0 x1 x2 r q := by
  rw [val_main_v4_apply, val_main_v3_apply, val_main_v0_apply, val_main_v2_apply, val_main_v1_apply,
    val_main_call0_v0_apply, val_main_call0_cst_apply]
  have hl : ∀ k : Fin 63, lidx_main_v0 (ix2 r q) k = ix2 r k := fun k =>
    funext fun a => by match a with | ⟨0, _⟩ => rfl | ⟨1, _⟩ => rfl
  have hr : ∀ k : Fin 63, ridx_main_v0 (ix2 r q) k = ix2 k q := fun k =>
    funext fun a => by match a with | ⟨0, _⟩ => rfl | ⟨1, _⟩ => rfl
  have hb : idx_main_v1 (idx_main_v2 (ix2 r q)) = ix1 q := funext fun a => by match a with | ⟨0, _⟩ => rfl
  simp only [hl, hr, hb, Ideal.addf_def, Ideal.maximumf_def, Ideal.ofBits_def, Ideal.ofBits_zero_f32]
  rfl

theorem v9_row (r : Fin 262144) (q : Fin 256) :
    val_main_v9 (F := Ideal) x0 x1 x2 x3 x4 (ix2 r q) = h2 x0 x1 x2 x3 x4 r q := by
  rw [val_main_v9_apply, val_main_v8_apply, val_main_v5_apply, val_main_v7_apply, val_main_v6_apply,
    val_main_call1_v0_apply, val_main_call1_cst_apply]
  have hl : ∀ k : Fin 256, lidx_main_v5 (ix2 r q) k = ix2 r k := fun k =>
    funext fun a => by match a with | ⟨0, _⟩ => rfl | ⟨1, _⟩ => rfl
  have hr : ∀ k : Fin 256, ridx_main_v5 (ix2 r q) k = ix2 k q := fun k =>
    funext fun a => by match a with | ⟨0, _⟩ => rfl | ⟨1, _⟩ => rfl
  have hb : idx_main_v6 (idx_main_v7 (ix2 r q)) = ix1 q := funext fun a => by match a with | ⟨0, _⟩ => rfl
  simp only [hl, hr, hb, v4_row, Ideal.addf_def, Ideal.maximumf_def, Ideal.ofBits_def, Ideal.ofBits_zero_f32]
  rfl

theorem v14_row (r : Fin 262144) (q : Fin 256) :
    val_main_v14 (F := Ideal) x0 x1 x2 x3 x4 x5 x6 (ix2 r q) = h3 x0 x1 x2 x3 x4 x5 x6 r q := by
  rw [val_main_v14_apply, val_main_v13_apply, val_main_v10_apply, val_main_v12_apply, val_main_v11_apply,
    val_main_call2_v0_apply, val_main_call2_cst_apply]
  have hl : ∀ k : Fin 256, lidx_main_v10 (ix2 r q) k = ix2 r k := fun k =>
    funext fun a => by match a with | ⟨0, _⟩ => rfl | ⟨1, _⟩ => rfl
  have hr : ∀ k : Fin 256, ridx_main_v10 (ix2 r q) k = ix2 k q := fun k =>
    funext fun a => by match a with | ⟨0, _⟩ => rfl | ⟨1, _⟩ => rfl
  have hb : idx_main_v11 (idx_main_v12 (ix2 r q)) = ix1 q := funext fun a => by match a with | ⟨0, _⟩ => rfl
  simp only [hl, hr, hb, v9_row, Ideal.addf_def, Ideal.maximumf_def, Ideal.ofBits_def, Ideal.ofBits_zero_f32]
  rfl

theorem v19_row (r : Fin 262144) (q : Fin 256) :
    val_main_v19 (F := Ideal) x0 x1 x2 x3 x4 x5 x6 x7 x8 (ix2 r q) = h4 x0 x1 x2 x3 x4 x5 x6 x7 x8 r q := by
  rw [val_main_v19_apply, val_main_v18_apply, val_main_v15_apply, val_main_v17_apply, val_main_v16_apply,
    val_main_call3_v0_apply, val_main_call3_cst_apply]
  have hl : ∀ k : Fin 256, lidx_main_v15 (ix2 r q) k = ix2 r k := fun k =>
    funext fun a => by match a with | ⟨0, _⟩ => rfl | ⟨1, _⟩ => rfl
  have hr : ∀ k : Fin 256, ridx_main_v15 (ix2 r q) k = ix2 k q := fun k =>
    funext fun a => by match a with | ⟨0, _⟩ => rfl | ⟨1, _⟩ => rfl
  have hb : idx_main_v16 (idx_main_v17 (ix2 r q)) = ix1 q := funext fun a => by match a with | ⟨0, _⟩ => rfl
  simp only [hl, hr, hb, v14_row, Ideal.addf_def, Ideal.maximumf_def, Ideal.ofBits_def, Ideal.ofBits_zero_f32]
  rfl

/-- The joined array at `(r, c)`: the input row below column 63, the fourth layer's row, 63 columns back, from there on. -/
theorem v20_row (r : Fin 262144) (c : Fin 319) :
    val_main_v20 (F := Ideal) x0 x1 x2 x3 x4 x5 x6 x7 x8 (ix2 r c) = s4 x0 x1 x2 x3 x4 x5 x6 x7 x8 r c := by
  unfold val_main_v20 s4 skip
  by_cases hc : c.val < 63
  · rw [dif_pos hc]
    exact DenseLayer.concat_cols_left x0 (val_main_v19 (F := Ideal) x0 x1 x2 x3 x4 x5 x6 x7 x8) _ r c ⟨c.val, hc⟩ rfl
  · rw [dif_neg hc]
    have hlt : c.val - 63 < 256 := by have := c.isLt; omega
    refine (DenseLayer.concat_cols_right x0 (val_main_v19 (F := Ideal) x0 x1 x2 x3 x4 x5 x6 x7 x8) _ r c
      ⟨c.val - 63, hlt⟩ (by show c.val - 63 + 63 = c.val; omega)).trans ?_
    exact v19_row x0 x1 x2 x3 x4 x5 x6 x7 x8 r ⟨c.val - 63, hlt⟩

theorem v25_row (r : Fin 262144) (q : Fin 256) :
    val_main_v25 (F := Ideal) x0 x1 x2 x3 x4 x5 x6 x7 x8 x9 x10 (ix2 r q) = h5 x0 x1 x2 x3 x4 x5 x6 x7 x8 x9 x10 r q := by
  rw [val_main_v25_apply, val_main_v24_apply, val_main_v21_apply, val_main_v23_apply, val_main_v22_apply,
    val_main_call4_v0_apply, val_main_call4_cst_apply]
  have hl : ∀ k : Fin 319, lidx_main_v21 (ix2 r q) k = ix2 r k := fun k =>
    funext fun a => by match a with | ⟨0, _⟩ => rfl | ⟨1, _⟩ => rfl
  have hr : ∀ k : Fin 319, ridx_main_v21 (ix2 r q) k = ix2 k q := fun k =>
    funext fun a => by match a with | ⟨0, _⟩ => rfl | ⟨1, _⟩ => rfl
  have hb : idx_main_v22 (idx_main_v23 (ix2 r q)) = ix1 q := funext fun a => by match a with | ⟨0, _⟩ => rfl
  simp only [hl, hr, hb, v20_row, Ideal.addf_def, Ideal.maximumf_def, Ideal.ofBits_def, Ideal.ofBits_zero_f32]
  rfl

theorem v30_row (r : Fin 262144) (q : Fin 256) :
    val_main_v30 (F := Ideal) x0 x1 x2 x3 x4 x5 x6 x7 x8 x9 x10 x11 x12 (ix2 r q)
      = h6 x0 x1 x2 x3 x4 x5 x6 x7 x8 x9 x10 x11 x12 r q := by
  rw [val_main_v30_apply, val_main_v29_apply, val_main_v26_apply, val_main_v28_apply, val_main_v27_apply,
    val_main_call5_v0_apply, val_main_call5_cst_apply]
  have hl : ∀ k : Fin 256, lidx_main_v26 (ix2 r q) k = ix2 r k := fun k =>
    funext fun a => by match a with | ⟨0, _⟩ => rfl | ⟨1, _⟩ => rfl
  have hr : ∀ k : Fin 256, ridx_main_v26 (ix2 r q) k = ix2 k q := fun k =>
    funext fun a => by match a with | ⟨0, _⟩ => rfl | ⟨1, _⟩ => rfl
  have hb : idx_main_v27 (idx_main_v28 (ix2 r q)) = ix1 q := funext fun a => by match a with | ⟨0, _⟩ => rfl
  simp only [hl, hr, hb, v25_row, Ideal.addf_def, Ideal.maximumf_def, Ideal.ofBits_def, Ideal.ofBits_zero_f32]
  rfl

theorem v35_row (r : Fin 262144) (q : Fin 256) :
    val_main_v35 (F := Ideal) x0 x1 x2 x3 x4 x5 x6 x7 x8 x9 x10 x11 x12 x13 x14 (ix2 r q)
      = h7 x0 x1 x2 x3 x4 x5 x6 x7 x8 x9 x10 x11 x12 x13 x14 r q := by
  rw [val_main_v35_apply, val_main_v34_apply, val_main_v31_apply, val_main_v33_apply, val_main_v32_apply,
    val_main_call6_v0_apply, val_main_call6_cst_apply]
  have hl : ∀ k : Fin 256, lidx_main_v31 (ix2 r q) k = ix2 r k := fun k =>
    funext fun a => by match a with | ⟨0, _⟩ => rfl | ⟨1, _⟩ => rfl
  have hr : ∀ k : Fin 256, ridx_main_v31 (ix2 r q) k = ix2 k q := fun k =>
    funext fun a => by match a with | ⟨0, _⟩ => rfl | ⟨1, _⟩ => rfl
  have hb : idx_main_v32 (idx_main_v33 (ix2 r q)) = ix1 q := funext fun a => by match a with | ⟨0, _⟩ => rfl
  simp only [hl, hr, hb, v30_row, Ideal.addf_def, Ideal.maximumf_def, Ideal.ofBits_def, Ideal.ofBits_zero_f32]
  rfl

/-- The last trunk layer has no maximum: its entry `(r, j)` is raw output `j` of row `r`. -/
theorem v39_row (r : Fin 262144) (j : Fin 4) :
    val_main_v39 (F := Ideal) x0 x1 x2 x3 x4 x5 x6 x7 x8 x9 x10 x11 x12 x13 x14 x15 x16 (ix2 r j)
      = raw4 x0 x1 x2 x3 x4 x5 x6 x7 x8 x9 x10 x11 x12 x13 x14 x15 x16 r j := by
  rw [val_main_v39_apply, val_main_v36_apply, val_main_v38_apply, val_main_v37_apply]
  have hl : ∀ k : Fin 256, lidx_main_v36 (ix2 r j) k = ix2 r k := fun k =>
    funext fun a => by match a with | ⟨0, _⟩ => rfl | ⟨1, _⟩ => rfl
  have hr : ∀ k : Fin 256, ridx_main_v36 (ix2 r j) k = ix2 k j := fun k =>
    funext fun a => by match a with | ⟨0, _⟩ => rfl | ⟨1, _⟩ => rfl
  have hb : idx_main_v37 (idx_main_v38 (ix2 r j)) = ix1 j := funext fun a => by match a with | ⟨0, _⟩ => rfl
  simp only [hl, hr, hb, v35_row, Ideal.addf_def]
  rfl

/-! ## The density head -/

/-- Column 0 of the raw outputs. -/
theorem v40_row (r : Fin 262144) :
    val_main_v40 (F := Ideal) x0 x1 x2 x3 x4 x5 x6 x7 x8 x9 x10 x11 x12 x13 x14 x15 x16 (ix2 r (0 : Fin 1))
      = raw4 x0 x1 x2 x3 x4 x5 x6 x7 x8 x9 x10 x11 x12 x13 x14 x15 x16 r 0 := by
  rw [val_main_v40_apply]
  have hi : idx_main_v40 (ix2 r (0 : Fin 1)) = ix2 r (0 : Fin 4) :=
    funext fun a => by match a with | ⟨0, _⟩ => rfl | ⟨1, _⟩ => rfl
  rw [hi, v39_row]

theorem v42_row (r : Fin 262144) (j : Fin 1) :
    val_main_v42 (F := Ideal) x0 x1 x2 x3 x4 x5 x6 x7 x8 x9 x10 x11 x12 x13 x14 x15 x16 (ix2 r j)
      = softplus (raw4 x0 x1 x2 x3 x4 x5 x6 x7 x8 x9 x10 x11 x12 x13 x14 x15 x16 r 0) := by
  obtain rfl : j = 0 := Subsingleton.elim _ _
  simp only [val_main_v42_apply, val_main_call7_v4_apply, val_main_call7_v6_apply, val_main_call7_v11_apply,
    val_main_call7_v1_apply, val_main_call7_v10_apply, val_main_call7_v9_apply, val_main_call7_v8_apply,
    val_main_call7_v7_apply, val_main_call7_v3_apply, val_main_call7_v0_apply, val_main_call7_v2_apply,
    val_main_call7_v5_apply, val_main_call7_cst_apply, v40_row,
    Ideal.cmpf_def, Ideal.addf_def, Ideal.subf_def, Ideal.maximumf_def, Ideal.hostAbsf_def, Ideal.absf_def,
    Ideal.hostNegf_def, Ideal.negf_def, Ideal.hostUnary_exp_def, Ideal.hostUnary_log1p_def, Ideal.ofBits_def,
    Ideal.ofBits_zero_f32]
  exact softplus_host _

/-! ## The colour head -/

/-- The single-precision word of 1.0 is the extended real 1. -/
theorem one_word : Ideal.ofBits .f32 0x3F800000#32 = 1 := by
  have h : ((8388608 : ℝ) * ((2 : ℝ) ^ 23)⁻¹ : ℝ) = 1 := by norm_num
  simp [Ideal.ofBits, Ideal.ieee, ← EReal.coe_mul, h]

/-- Columns 1, 2, 3 of the raw outputs. -/
theorem v41_row (r : Fin 262144) (j : Fin 3) :
    val_main_v41 (F := Ideal) x0 x1 x2 x3 x4 x5 x6 x7 x8 x9 x10 x11 x12 x13 x14 x15 x16 (ix2 r j)
      = raw4 x0 x1 x2 x3 x4 x5 x6 x7 x8 x9 x10 x11 x12 x13 x14 x15 x16 r ⟨j.val + 1, by have := j.isLt; omega⟩ := by
  rw [val_main_v41_apply]
  have hi : idx_main_v41 (ix2 r j) = ix2 r (⟨j.val + 1, by have := j.isLt; omega⟩ : Fin 4) :=
    funext fun a => by
      match a with
      | ⟨0, _⟩ => rfl
      | ⟨1, _⟩ => exact Fin.ext (Nat.add_comm 1 j.val)
  rw [hi, v39_row]

theorem v52_row (r : Fin 262144) (j : Fin 3) :
    val_main_v52 (F := Ideal) x0 x1 x2 x3 x4 x5 x6 x7 x8 x9 x10 x11 x12 x13 x14 x15 x16 (ix2 r j)
      = Ideal.logistic (raw4 x0 x1 x2 x3 x4 x5 x6 x7 x8 x9 x10 x11 x12 x13 x14 x15 x16 r ⟨j.val + 1, by have := j.isLt; omega⟩)
          * Ideal.ofBits .f32 0x3F804189#32 - Ideal.ofBits .f32 0x3A83126F#32 := by
  simp only [val_main_v52_apply, val_main_v50_apply, val_main_v51_apply, val_main_v48_apply, val_main_v49_apply,
    val_main_v47_apply, val_main_v46_apply, val_main_v45_apply, val_main_v44_apply, val_main_v43_apply,
    val_main_cst_apply, val_main_cst_0_apply, val_main_cst_1_apply, val_main_cst_2_apply, v41_row,
    Ideal.subf_def, Ideal.mulf_def, Ideal.addf_def, Ideal.hostDivf_def, Ideal.hostNegf_def, Ideal.negf_def,
    Ideal.hostUnary_exp_def, Ideal.ofBits_def, one_word]
  rfl

/-! ## The normal head -/

def g1 (r : Fin 262144) : Fin 64 → EReal := layer (k := 256) (m := 64) x17 x18 (h7 x0 x1 x2 x3 x4 x5 x6 x7 x8 x9 x10 x11 x12 x13 x14 r)
def g2 (r : Fin 262144) : Fin 64 → EReal := layer (k := 64) (m := 64) x19 x20 (g1 x0 x1 x2 x3 x4 x5 x6 x7 x8 x9 x10 x11 x12 x13 x14 x17 x18 r)
/-- The normal head of row `r` before it is normalised. -/
def th (r : Fin 262144) : Fin 3 → EReal :=
  fun j => Ideal.tanh (affine (k := 64) (m := 3) x21 x22 (g2 x0 x1 x2 x3 x4 x5 x6 x7 x8 x9 x10 x11 x12 x13 x14 x17 x18 x19 x20 r) j)

theorem v57_row (r : Fin 262144) (q : Fin 64) :
    val_main_v57 (F := Ideal) x0 x1 x2 x3 x4 x5 x6 x7 x8 x9 x10 x11 x12 x13 x14 x17 x18 (ix2 r q) = g1 x0 x1 x2 x3 x4 x5 x6 x7 x8 x9 x10 x11 x12 x13 x14 x17 x18 r q := by
  rw [val_main_v57_apply, val_main_v56_apply, val_main_v53_apply, val_main_v55_apply, val_main_v54_apply,
    val_main_call8_v0_apply, val_main_call8_cst_apply]
  have hl : ∀ k : Fin 256, lidx_main_v53 (ix2 r q) k = ix2 r k := fun k =>
    funext fun a => by match a with | ⟨0, _⟩ => rfl | ⟨1, _⟩ => rfl
  have hr : ∀ k : Fin 256, ridx_main_v53 (ix2 r q) k = ix2 k q := fun k =>
    funext fun a => by match a with | ⟨0, _⟩ => rfl | ⟨1, _⟩ => rfl
  have hb : idx_main_v54 (idx_main_v55 (ix2 r q)) = ix1 q := funext fun a => by match a with | ⟨0, _⟩ => rfl
  simp only [hl, hr, hb, v35_row, Ideal.addf_def, Ideal.maximumf_def, Ideal.ofBits_def, Ideal.ofBits_zero_f32]
  rfl

theorem v62_row (r : Fin 262144) (q : Fin 64) :
    val_main_v62 (F := Ideal) x0 x1 x2 x3 x4 x5 x6 x7 x8 x9 x10 x11 x12 x13 x14 x17 x18 x19 x20 (ix2 r q) = g2 x0 x1 x2 x3 x4 x5 x6 x7 x8 x9 x10 x11 x12 x13 x14 x17 x18 x19 x20 r q := by
  rw [val_main_v62_apply, val_main_v61_apply, val_main_v58_apply, val_main_v60_apply, val_main_v59_apply,
    val_main_call9_v0_apply, val_main_call9_cst_apply]
  have hl : ∀ k : Fin 64, lidx_main_v58 (ix2 r q) k = ix2 r k := fun k =>
    funext fun a => by match a with | ⟨0, _⟩ => rfl | ⟨1, _⟩ => rfl
  have hr : ∀ k : Fin 64, ridx_main_v58 (ix2 r q) k = ix2 k q := fun k =>
    funext fun a => by match a with | ⟨0, _⟩ => rfl | ⟨1, _⟩ => rfl
  have hb : idx_main_v59 (idx_main_v60 (ix2 r q)) = ix1 q := funext fun a => by match a with | ⟨0, _⟩ => rfl
  simp only [hl, hr, hb, v57_row, Ideal.addf_def, Ideal.maximumf_def, Ideal.ofBits_def, Ideal.ofBits_zero_f32]
  rfl

theorem v67_row (r : Fin 262144) (j : Fin 3) :
    val_main_v67 (F := Ideal) x0 x1 x2 x3 x4 x5 x6 x7 x8 x9 x10 x11 x12 x13 x14 x17 x18 x19 x20 x21 x22 (ix2 r j)
      = th x0 x1 x2 x3 x4 x5 x6 x7 x8 x9 x10 x11 x12 x13 x14 x17 x18 x19 x20 x21 x22 r j := by
  rw [val_main_v67_apply, val_main_v66_apply, val_main_v63_apply, val_main_v65_apply, val_main_v64_apply]
  have hl : ∀ k : Fin 64, lidx_main_v63 (ix2 r j) k = ix2 r k := fun k =>
    funext fun a => by match a with | ⟨0, _⟩ => rfl | ⟨1, _⟩ => rfl
  have hr : ∀ k : Fin 64, ridx_main_v63 (ix2 r j) k = ix2 k j := fun k =>
    funext fun a => by match a with | ⟨0, _⟩ => rfl | ⟨1, _⟩ => rfl
  have hb : idx_main_v64 (idx_main_v65 (ix2 r j)) = ix1 j := funext fun a => by match a with | ⟨0, _⟩ => rfl
  simp only [hl, hr, hb, v62_row, Ideal.addf_def, Ideal.hostUnary_tanh_def]
  rfl

/-- The Euclidean length of the head of row `r`, bounded below by ε: the sum of the three squares starts from 0. -/
theorem v70_row (r : Fin 262144) :
    val_main_v70 (F := Ideal) x0 x1 x2 x3 x4 x5 x6 x7 x8 x9 x10 x11 x12 x13 x14 x17 x18 x19 x20 x21 x22 (ix2 r (0 : Fin 1))
      = max (Ideal.sqrt (∑ k : Fin 3, th x0 x1 x2 x3 x4 x5 x6 x7 x8 x9 x10 x11 x12 x13 x14 x17 x18 x19 x20 x21 x22 r k
              * th x0 x1 x2 x3 x4 x5 x6 x7 x8 x9 x10 x11 x12 x13 x14 x17 x18 x19 x20 x21 x22 r k)) (Ideal.ofBits .f32 0x2B8CBCCC#32) := by
  rw [val_main_v70_apply, val_main_v68_apply, val_main_call10_v2_apply, val_main_call10_v1_apply, val_main_v69_apply,
    val_main_cst_3_apply, val_main_call10_cst_apply]
  have hi : ∀ k : Fin 3, idx_main_call10_v1 (idx_main_call10_v2 (ix2 r (0 : Fin 1))) k = ix2 r k := fun k =>
    funext fun a => by match a with | ⟨0, _⟩ => rfl | ⟨1, _⟩ => rfl
  simp only [hi, val_main_call10_v0_apply, v67_row, Ideal.mulf_def, Ideal.maximumf_def, Ideal.hostUnary_sqrt_def,
    Ideal.ofBits_def, Ideal.ofBits_zero_f32, zero_add]

theorem v72_row (r : Fin 262144) (j : Fin 3) :
    val_main_v72 (F := Ideal) x0 x1 x2 x3 x4 x5 x6 x7 x8 x9 x10 x11 x12 x13 x14 x17 x18 x19 x20 x21 x22 (ix2 r j)
      = unitize (th x0 x1 x2 x3 x4 x5 x6 x7 x8 x9 x10 x11 x12 x13 x14 x17 x18 x19 x20 x21 x22 r) j := by
  rw [val_main_v72_apply, val_main_v71_apply]
  have hi : idx_main_v71 (ix2 r j) = ix2 r (0 : Fin 1) :=
    funext fun a => by match a with | ⟨0, _⟩ => rfl | ⟨1, _⟩ => rfl
  rw [hi, v70_row, v67_row, Ideal.hostDivf_def]
  rfl

/-! ## The three results -/

theorem density_eq :
    val_main_v42 (F := Ideal) x0 x1 x2 x3 x4 x5 x6 x7 x8 x9 x10 x11 x12 x13 x14 x15 x16
      = Gdensity ⟨x1, x2, x3, x4, x5, x6, x7, x8, x9, x10, x11, x12, x13, x14, x15, x16, x17, x18, x19, x20, x21, x22⟩ x0 := by
  funext i
  obtain ⟨r, j, rfl⟩ : ∃ r j, i = ix2 r j := ⟨i 0, i 1, eq_ix2 i⟩
  rw [v42_row]
  rfl

theorem colour_eq :
    val_main_v52 (F := Ideal) x0 x1 x2 x3 x4 x5 x6 x7 x8 x9 x10 x11 x12 x13 x14 x15 x16
      = Gcolour ⟨x1, x2, x3, x4, x5, x6, x7, x8, x9, x10, x11, x12, x13, x14, x15, x16, x17, x18, x19, x20, x21, x22⟩ x0 := by
  funext i
  obtain ⟨r, j, rfl⟩ : ∃ r j, i = ix2 r j := ⟨i 0, i 1, eq_ix2 i⟩
  rw [v52_row]
  rfl

theorem normal_eq :
    val_main_v72 (F := Ideal) x0 x1 x2 x3 x4 x5 x6 x7 x8 x9 x10 x11 x12 x13 x14 x17 x18 x19 x20 x21 x22
      = Gnormal ⟨x1, x2, x3, x4, x5, x6, x7, x8, x9, x10, x11, x12, x13, x14, x15, x16, x17, x18, x19, x20, x21, x22⟩ x0 := by
  funext i
  obtain ⟨r, j, rfl⟩ : ∃ r j, i = ix2 r j := ⟨i 0, i 1, eq_ix2 i⟩
  rw [v72_row]
  rfl

end Cert.ReferenceIdeal.Rows

end
-- ==== Proof.RefRun.lean ====
/-
  The reference's run, read: every weakly fair run of the idealized reference ends with its three results at the
  specification's whole-array functions of the arguments (density, colour and normal of every row), and the arguments
  as they were. The run itself and each result's term over the arguments are the generated ones; what is added is that
  each term is the specification's function.
-/
import proofs.«125031_j78632261256031_1_alg».proof.Proof.Gen.ReferenceIdeal.Run
import proofs.«125031_j78632261256031_1_alg».proof.Proof.Gen.ReferenceIdeal.Read
import proofs.«125031_j78632261256031_1_alg».proof.Proof.RefRows

noncomputable section

namespace Cert.ReferenceIdeal.RefRun

open Cert.ReferenceIdeal Cert.ReferenceIdeal.Gen Idealize.ShloMosaic Idealize.ShloMosaic.TcCoe Idealize.SL.Sem Cert.RowNet

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = Gdensity ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22)⟩ (m ((c.tc : Thread nD τ).loc main_arg0))
      ∧ r.2.mem ((c.tc : Thread nD τ).loc main_v52) = Gcolour ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22)⟩ (m ((c.tc : Thread nD τ).loc main_arg0))
      ∧ r.2.mem ((c.tc : Thread nD τ).loc main_v72) = Gnormal ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22)⟩ (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c =>
    ⟨(h c).1.trans ((Read.val_main_v42_eq m c).trans (Rows.density_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))),
     (h c).2.1.trans ((Read.val_main_v52_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))).trans (Rows.colour_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))),
     (h c).2.2.1.trans ((Read.val_main_v72_eq m c).trans (Rows.normal_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))),
     (h c).2.2.2⟩)
    (Value.run (F := Ideal) m ρ)

end Cert.ReferenceIdeal.RefRun

end
-- ==== Proof.lean ====
/-
  The certificate of a row-wise multilayer perceptron computed in blocks of 2048 rows against the same network written
  with whole-array operations.

  Both programs send every row of 63 features through the same network (Proof/RowNet.lean: ten affine layers with the
  maximum with zero between them, the input row put back in front of the fourth layer's output, a softplus head, a
  logistic head, and a tanh head normalised to unit length), and over the extended reals they apply the same
  operations to the same values in the same order: no algebraic law joins them, and the precondition is never opened.

    the kernel     every stored value of the body, read at row p of a block, is the network applied to row p of the
                   input block (Proof/KernelProducts, KernelTrunk, KernelHeads, KernelBlocks); block t of each result
                   array is what grid point t wrote, and the 128 blocks tile the arrays (Proof/KernelArrays);
    the reference  every stage of its @main, read at row r, is the network applied to row r (Proof/RefRows), so its
                   three results are the same whole-array functions (Proof/RefRun).

  The three frames are the generated ones (the reference's frame is its run with the results dropped), and the
  idealization changed no operation, so nothing is to be preserved.
-/
import proofs.«125031_j78632261256031_1_alg».proof.Defs
import proofs.«125031_j78632261256031_1_alg».proof.Proof.Gen.Kernel
import proofs.«125031_j78632261256031_1_alg».proof.Proof.Gen.Kernel.Skeleton
import proofs.«125031_j78632261256031_1_alg».proof.Proof.Gen.Kernel.Launch
import proofs.«125031_j78632261256031_1_alg».proof.Proof.Gen.Kernel.Points
import proofs.«125031_j78632261256031_1_alg».proof.Proof.Gen.Kernel.Frame
import proofs.«125031_j78632261256031_1_alg».proof.Proof.Gen.KernelIdeal
import proofs.«125031_j78632261256031_1_alg».proof.Proof.Gen.KernelIdeal.Skeleton
import proofs.«125031_j78632261256031_1_alg».proof.Proof.Gen.KernelIdeal.Launch
import proofs.«125031_j78632261256031_1_alg».proof.Proof.Gen.KernelIdeal.Points
import proofs.«125031_j78632261256031_1_alg».proof.Proof.Gen.KernelIdeal.Frame
import proofs.«125031_j78632261256031_1_alg».proof.Proof.Gen.ReferenceIdeal
import proofs.«125031_j78632261256031_1_alg».proof.Proof.Gen.Pre_finite_inputs
import proofs.«125031_j78632261256031_1_alg».proof.Proof.Gen.ReferenceIdeal.Run
import proofs.«125031_j78632261256031_1_alg».proof.Proof.Gen.ReferenceIdeal.Read
import proofs.«125031_j78632261256031_1_alg».proof.Proof.KernelIdealValue
import proofs.«125031_j78632261256031_1_alg».proof.Proof.KernelArrays
import proofs.«125031_j78632261256031_1_alg».proof.Proof.RefRun
import Idealize.ShloMosaic.Adequacy
import Idealize.ShloMosaic.Init

noncomputable section

namespace Cert.Proof

open Idealize.ShloMosaic Idealize.SL.Sem Cert.RowNet

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the arguments both runs end with the three results at the same functions of the same
    arguments: the specification's density, colour and normal of every row. -/
theorem algebraic : Cert.algebraic_KernelIdeal_ReferenceIdeal := by
  intro m ρ m' ρ' _ hagree
  refine ⟨fun c => Gdensity ⟨m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13), m ((c.tc : Thread Cert.KernelIdeal.nD Cert.KernelIdeal.τ).loc Cert.KernelIdeal.main_arg14), m ((c.tc : Thread Cert.KernelIdeal.nD Cert.KernelIdeal.τ).loc Cert.KernelIdeal.main_arg15), m ((c.tc : Thread Cert.KernelIdeal.nD Cert.KernelIdeal.τ).loc Cert.KernelIdeal.main_arg16), m ((c.tc : Thread Cert.KernelIdeal.nD Cert.KernelIdeal.τ).loc Cert.KernelIdeal.main_arg17), m ((c.tc : Thread Cert.KernelIdeal.nD Cert.KernelIdeal.τ).loc Cert.KernelIdeal.main_arg18), m ((c.tc : Thread Cert.KernelIdeal.nD Cert.KernelIdeal.τ).loc Cert.KernelIdeal.main_arg19), m ((c.tc : Thread Cert.KernelIdeal.nD Cert.KernelIdeal.τ).loc Cert.KernelIdeal.main_arg20), m ((c.tc : Thread Cert.KernelIdeal.nD Cert.KernelIdeal.τ).loc Cert.KernelIdeal.main_arg21), m ((c.tc : Thread Cert.KernelIdeal.nD Cert.KernelIdeal.τ).loc Cert.KernelIdeal.main_arg22)⟩ (m ((c.tc : Thread Cert.KernelIdeal.nD Cert.KernelIdeal.τ).loc Cert.KernelIdeal.main_arg0)),
    fun c => Gcolour ⟨m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13), m ((c.tc : Thread Cert.KernelIdeal.nD Cert.KernelIdeal.τ).loc Cert.KernelIdeal.main_arg14), m ((c.tc : Thread Cert.KernelIdeal.nD Cert.KernelIdeal.τ).loc Cert.KernelIdeal.main_arg15), m ((c.tc : Thread Cert.KernelIdeal.nD Cert.KernelIdeal.τ).loc Cert.KernelIdeal.main_arg16), m ((c.tc : Thread Cert.KernelIdeal.nD Cert.KernelIdeal.τ).loc Cert.KernelIdeal.main_arg17), m ((c.tc : Thread Cert.KernelIdeal.nD Cert.KernelIdeal.τ).loc Cert.KernelIdeal.main_arg18), m ((c.tc : Thread Cert.KernelIdeal.nD Cert.KernelIdeal.τ).loc Cert.KernelIdeal.main_arg19), m ((c.tc : Thread Cert.KernelIdeal.nD Cert.KernelIdeal.τ).loc Cert.KernelIdeal.main_arg20), m ((c.tc : Thread Cert.KernelIdeal.nD Cert.KernelIdeal.τ).loc Cert.KernelIdeal.main_arg21), m ((c.tc : Thread Cert.KernelIdeal.nD Cert.KernelIdeal.τ).loc Cert.KernelIdeal.main_arg22)⟩ (m ((c.tc : Thread Cert.KernelIdeal.nD Cert.KernelIdeal.τ).loc Cert.KernelIdeal.main_arg0)),
    fun c => Gnormal ⟨m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9), m ((c.tc : Thread Cert.KernelIdeal.nD Cert.KernelIdeal.τ).loc Cert.KernelIdeal.main_arg10), m ((c.tc : Thread Cert.KernelIdeal.nD Cert.KernelIdeal.τ).loc Cert.KernelIdeal.main_arg11), m ((c.tc : Thread Cert.KernelIdeal.nD Cert.KernelIdeal.τ).loc Cert.KernelIdeal.main_arg12), m ((c.tc : Thread Cert.KernelIdeal.nD Cert.KernelIdeal.τ).loc Cert.KernelIdeal.main_arg13), m ((c.tc : Thread Cert.KernelIdeal.nD Cert.KernelIdeal.τ).loc Cert.KernelIdeal.main_arg14), m ((c.tc : Thread Cert.KernelIdeal.nD Cert.KernelIdeal.τ).loc Cert.KernelIdeal.main_arg15), m ((c.tc : Thread Cert.KernelIdeal.nD Cert.KernelIdeal.τ).loc Cert.KernelIdeal.main_arg16), m ((c.tc : Thread Cert.KernelIdeal.nD Cert.KernelIdeal.τ).loc Cert.KernelIdeal.main_arg17), m ((c.tc : Thread Cert.KernelIdeal.nD Cert.KernelIdeal.τ).loc Cert.KernelIdeal.main_arg18), m ((c.tc : Thread Cert.KernelIdeal.nD Cert.KernelIdeal.τ).loc Cert.KernelIdeal.main_arg19), m ((c.tc : Thread Cert.KernelIdeal.nD Cert.KernelIdeal.τ).loc Cert.KernelIdeal.main_arg20), m ((c.tc : Thread Cert.KernelIdeal.nD Cert.KernelIdeal.τ).loc Cert.KernelIdeal.main_arg21), m ((c.tc : Thread Cert.KernelIdeal.nD Cert.KernelIdeal.τ).loc Cert.KernelIdeal.main_arg22)⟩ (m ((c.tc : Thread Cert.KernelIdeal.nD Cert.KernelIdeal.τ).loc Cert.KernelIdeal.main_arg0)),
    Cert.KernelIdeal.Arrays.run m ρ, ?_⟩
  refine (θ_run Cert.ReferenceIdeal.defs _ _).mono (fun r h c => ?_) (Cert.ReferenceIdeal.RefRun.run m' ρ')
  obtain ⟨a0, a1, a2, a3, a4, a5, a6, a7, a8, a9, a10, a11, a12, a13, a14, a15, a16, a17, a18, a19, a20, a21, a22⟩ := hagree c
  have hc := h c
  refine ⟨?_, ?_, ?_, hc.2.2.2⟩
  · have h0 := hc.1
    rw [a0, a1, a2, a3, a4, a5, a6, a7, a8, a9, a10, a11, a12, a13, a14, a15, a16, a17, a18, a19, a20, a21, a22] at h0
    exact h0
  · have h1 := hc.2.1
    rw [a0, a1, a2, a3, a4, a5, a6, a7, a8, a9, a10, a11, a12, a13, a14, a15, a16, a17, a18, a19, a20, a21, a22] at h1
    exact h1
  · have h2 := hc.2.2.1
    rw [a0, a1, a2, a3, a4, a5, a6, a7, a8, a9, a10, a11, a12, a13, a14, a15, a16, a17, a18, a19, a20, a21, a22] at h2
    exact h2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
